-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x65536 : Shape := ⟨2, ![128, 65536]⟩
abbrev S100000x128 : Shape := ⟨2, ![100000, 128]⟩
abbrev S100000 : Shape := ⟨1, ![100000]⟩
abbrev S_ : Shape := ⟨0, ![]⟩

class Facts : Prop where
  bcast_S_S128x65536 : S_.BroadcastsInDim S128x65536 (![] : Fin 0 → Fin S128x65536.rank)
  reducesTo_S128x65536_S_d0_1 : S128x65536.ReducesTo [0, 1] S_
  h_S_ : 0 < S_.numel
  bcast_S_S100000 : S_.BroadcastsInDim S100000 (![] : Fin 0 → Fin S100000.rank)
  reducesTo_S100000_S_d0 : S100000.ReducesTo [0] S_
  bcast_S_S100000x128 : S_.BroadcastsInDim S100000x128 (![] : Fin 0 → Fin S100000x128.rank)
  reducesTo_S100000x128_S_d0_1 : S100000x128.ReducesTo [0, 1] S_

variable [Facts]

def fn_part1 {F : FTy → Type} [FloatOps F] (main_arg2 : IVec S100000x128 32) (main_v13 : IVec S_ 1) (main_v16 : IVec S100000 1) : IVec S_ 1 :=
  let main_c_5 : IVec S_ 1 := constantI S_ 1 1#1
  let main_v17 : IVec S_ 1 := (fun x v => Host.reduce IntOp.andi x v reducesTo_S100000_S_d0 h_S_) main_v16 main_c_5
  let main_v18 : IVec S_ 1 := andi main_v13 main_v17
  let main_c_6 : IVec S_ 32 := constantI S_ 32 0#32
  let main_v19 : IVec S100000x128 32 := broadcastInDim S100000x128 ![] bcast_S_S100000x128 main_c_6
  let main_v20 : IVec S100000x128 1 := cmpi .sge main_arg2 main_v19
  let main_c_7 : IVec S_ 1 := constantI S_ 1 1#1
  let main_v21 : IVec S_ 1 := (fun x v => Host.reduce IntOp.andi x v reducesTo_S100000x128_S_d0_1 h_S_) main_v20 main_c_7
  let main_v22 : IVec S_ 1 := andi main_v18 main_v21
  let main_c_8 : IVec S_ 32 := constantI S_ 32 65536#32
  let main_v23 : IVec S100000x128 32 := broadcastInDim S100000x128 ![] bcast_S_S100000x128 main_c_8
  let main_v24 : IVec S100000x128 1 := cmpi .slt main_arg2 main_v23
  let main_c_9 : IVec S_ 1 := constantI S_ 1 1#1
  let main_v25 : IVec S_ 1 := (fun x v => Host.reduce IntOp.andi x v reducesTo_S100000x128_S_d0_1 h_S_) main_v24 main_c_9
  let main_v26 : IVec S_ 1 := andi main_v22 main_v25
  main_v26

def fn {F : FTy → Type} [FloatOps F] (main_arg0 : FVec F S128x65536 .f32) (main_arg1 : FVec F S128x65536 .f32) (main_arg2 : IVec S100000x128 32) (main_arg3 : FVec F S100000 .f32) (main_arg4 : FVec F S100000 .f32) : IVec S_ 1 :=
  let main_v0 : FVec F S128x65536 .f32 := Host.absf main_arg0
  let main_cst : FVec F S_ .f32 := constant S_ .f32 0x7F800000#32
  let main_v1 : FVec F S128x65536 .f32 := broadcastInDim S128x65536 ![] bcast_S_S128x65536 main_cst
  let main_v2 : IVec S128x65536 1 := cmpf .olt main_v0 main_v1
  let main_c : IVec S_ 1 := constantI S_ 1 1#1
  let main_v3 : IVec S_ 1 := (fun x v => Host.reduce IntOp.andi x v reducesTo_S128x65536_S_d0_1 h_S_) main_v2 main_c
  let main_v4 : FVec F S128x65536 .f32 := Host.absf main_arg1
  let main_cst_0 : FVec F S_ .f32 := constant S_ .f32 0x7F800000#32
  let main_v5 : FVec F S128x65536 .f32 := broadcastInDim S128x65536 ![] bcast_S_S128x65536 main_cst_0
  let main_v6 : IVec S128x65536 1 := cmpf .olt main_v4 main_v5
  let main_c_1 : IVec S_ 1 := constantI S_ 1 1#1
  let main_v7 : IVec S_ 1 := (fun x v => Host.reduce IntOp.andi x v reducesTo_S128x65536_S_d0_1 h_S_) main_v6 main_c_1
  let main_v8 : IVec S_ 1 := andi main_v3 main_v7
  let main_v9 : FVec F S100000 .f32 := Host.absf main_arg3
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_v14 : FVec F S100000 .f32 := Host.absf main_arg4
  let main_cst_4 : FVec F S_ .f32 := constant S_ .f32 0x7F800000#32
  let main_v15 : FVec F S100000 .f32 := broadcastInDim S100000 ![] bcast_S_S100000 main_cst_4
  let main_v16 : IVec S100000 1 := cmpf .olt main_v14 main_v15
  fn_part1 (F := F) main_arg2 main_v13 main_v16
-- ==== Kernel.lean ====
abbrev S128x65536 : Shape := ⟨2, ![128, 65536]⟩
abbrev S100000x128 : Shape := ⟨2, ![100000, 128]⟩
abbrev S100000 : Shape := ⟨1, ![100000]⟩
abbrev S128x100000 : Shape := ⟨2, ![128, 100000]⟩
abbrev S_ : Shape := ⟨0, ![]⟩
abbrev S128x100096 : Shape := ⟨2, ![128, 100096]⟩
abbrev S128x100096x1 : Shape := ⟨3, ![128, 100096, 1]⟩
abbrev S1x100000x1 : Shape := ⟨3, ![1, 100000, 1]⟩
abbrev S1x100096x1 : Shape := ⟨3, ![1, 100096, 1]⟩
abbrev S128x512x128 : Shape := ⟨3, ![128, 512, 128]⟩
abbrev S8x256x1 : Shape := ⟨3, ![8, 256, 1]⟩
abbrev S1x256x1 : Shape := ⟨3, ![1, 256, 1]⟩
abbrev S8x512x128 : Shape := ⟨3, ![8, 512, 128]⟩
abbrev S8x256x512 : Shape := ⟨3, ![8, 256, 512]⟩
abbrev S8x256x128 : Shape := ⟨3, ![8, 256, 128]⟩
abbrev S1x128x65536 : Shape := ⟨3, ![1, 128, 65536]⟩
abbrev S2x128x65536 : Shape := ⟨3, ![2, 128, 65536]⟩

abbrev nBuf : Space → Nat
  | .hbm => 27
  | .vmem => 16
  | .smem => 0
  | _ => 0

abbrev bufTy : (tb : Table) → Fin (tcTables nBuf tb) → BufTy
  | .hbm, ⟨0, _⟩ => ⟨S128x65536, .f32⟩
  | .hbm, ⟨1, _⟩ => ⟨S128x65536, .f32⟩
  | .hbm, ⟨2, _⟩ => ⟨S100000x128, .i32⟩
  | .hbm, ⟨3, _⟩ => ⟨S100000, .f32⟩
  | .hbm, ⟨4, _⟩ => ⟨S100000, .f32⟩
  | .hbm, ⟨5, _⟩ => ⟨S128x100000, .i32⟩
  | .hbm, ⟨6, _⟩ => ⟨S_, .i32⟩
  | .hbm, ⟨7, _⟩ => ⟨S_, .i32⟩
  | .hbm, ⟨8, _⟩ => ⟨S128x100096, .i32⟩
  | .hbm, ⟨9, _⟩ => ⟨S128x100096x1, .i32⟩
  | .hbm, ⟨10, _⟩ => ⟨S1x100000x1, .f32⟩
  | .hbm, ⟨11, _⟩ => ⟨S_, .i32⟩
  | .hbm, ⟨12, _⟩ => ⟨S_, .f32⟩
  | .hbm, ⟨13, _⟩ => ⟨S1x100096x1, .f32⟩
  | .hbm, ⟨14, _⟩ => ⟨S1x100000x1, .f32⟩
  | .hbm, ⟨15, _⟩ => ⟨S_, .i32⟩
  | .hbm, ⟨16, _⟩ => ⟨S_, .f32⟩
  | .hbm, ⟨17, _⟩ => ⟨S1x100096x1, .f32⟩
  | .hbm, ⟨18, _⟩ => ⟨S128x512x128, .f32⟩
  | .hbm, ⟨19, _⟩ => ⟨S128x512x128, .f32⟩
  | .hbm, ⟨20, _⟩ => ⟨S128x512x128, .f32⟩
  | .hbm, ⟨21, _⟩ => ⟨S128x512x128, .f32⟩
  | .hbm, ⟨22, _⟩ => ⟨S128x65536, .f32⟩
  | .hbm, ⟨23, _⟩ => ⟨S128x65536, .f32⟩
  | .hbm, ⟨24, _⟩ => ⟨S1x128x65536, .f32⟩
  | .hbm, ⟨25, _⟩ => ⟨S1x128x65536, .f32⟩
  | .hbm, ⟨26, _⟩ => ⟨S2x128x65536, .f32⟩
  | .local _ .vmem, ⟨0, _⟩ => ⟨S8x256x1, .i32⟩
  | .local _ .vmem, ⟨1, _⟩ => ⟨S8x256x1, .i32⟩
  | .local _ .vmem, ⟨2, _⟩ => ⟨S1x256x1, .f32⟩
  | .local _ .vmem, ⟨3, _⟩ => ⟨S1x256x1, .f32⟩
  | .local _ .vmem, ⟨4, _⟩ => ⟨S1x256x1, .f32⟩
  | .local _ .vmem, ⟨5, _⟩ => ⟨S1x256x1, .f32⟩
  | .local _ .vmem, ⟨6, _⟩ => ⟨S8x512x128, .f32⟩
  | .local _ .vmem, ⟨7, _⟩ => ⟨S8x512x128, .f32⟩
  | .local _ .vmem, ⟨8, _⟩ => ⟨S8x512x128, .f32⟩
  | .local _ .vmem, ⟨9, _⟩ => ⟨S8x512x128, .f32⟩
  | .local _ .vmem, ⟨10, _⟩ => ⟨S8x512x128, .f32⟩
  | .local _ .vmem, ⟨11, _⟩ => ⟨S8x512x128, .f32⟩
  | .local _ .vmem, ⟨12, _⟩ => ⟨S8x512x128, .f32⟩
  | .local _ .vmem, ⟨13, _⟩ => ⟨S8x512x128, .f32⟩
  | .local _ .vmem, ⟨14, _⟩ => ⟨S8x512x128, .f32⟩
  | .local _ .vmem, ⟨15, _⟩ => ⟨S8x512x128, .f32⟩
  | _, _ => ⟨S128x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_call2_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 391], ![false, false]⟩

def k0_cond2 (i : grid0.Coords) : BitVec 1 :=
  let arg1 : BitVec 32 := BitVec.ofNat 32 (i 1).val
  let c390_i32 : BitVec 32 := 390#32
  let v47 : BitVec 1 := Scalar.cmpi .eq arg1 c390_i32
  let v48 : BitVec 32 := Scalar.extui v47
  let c0_i32_22 : BitVec 32 := 0#32
  let v49 : BitVec 1 := Scalar.cmpi .ne v48 c0_i32_22
  v49

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  transposes_S100000x128_S128x100000_1_0 : S100000x128.Transposes [1, 0] S128x100000
  pads_S128x100000_S128x100096_000_0960 : S128x100000.Pads (![0, 0] : Fin 2 → Nat) ![0, 96] ![0, 0] S128x100096
  h_S_ : 0 < S_.numel
  shapeCasts_S128x100096_S128x100096x1 : S128x100096.ShapeCasts S128x100096x1
  shapeCasts_S100000_S1x100000x1 : S100000.ShapeCasts S1x100000x1
  pads_S1x100000x1_S1x100096x1_000_0960_000 : S1x100000x1.Pads (![0, 0, 0] : Fin 3 → Nat) ![0, 96, 0] ![0, 0, 0] S1x100096x1
  shapeCasts_S128x65536_S128x512x128 : S128x65536.ShapeCasts S128x512x128
  inb_S8x512x128_S8x512x128_0_0_0 : ∀ a, (![0, 0, 0] : Fin 3 → Nat) a + S8x512x128.size a ≤ S8x512x128.size a
  h_S8x512x128 : 0 < S8x512x128.numel
  shapeCasts_S8x512x128_S8x512x128 : S8x512x128.ShapeCasts S8x512x128
  inb_S8x256x1_S8x256x1_0_0_0 : ∀ a, (![0, 0, 0] : Fin 3 → Nat) a + S8x256x1.size a ≤ S8x256x1.size a
  h_S8x256x1 : 0 < S8x256x1.numel
  shapeCasts_S8x256x1_S8x256x1 : S8x256x1.ShapeCasts S8x256x1
  iota_S8x256x512_d2_w32 : S8x256x512.Iotas .tc 32 [2]
  broadcasts_S8x256x1_S8x256x512 : S8x256x1.Broadcasts S8x256x512
  natLt_1_32 : 1 < 32
  bitsLt_bf16_f32 : FTy.bits .bf16 < FTy.bits .f32
  iota_S8x256x128_d2_w32 : S8x256x128.Iotas .tc 32 [2]
  broadcasts_S8x256x1_S8x256x128 : S8x256x1.Broadcasts S8x256x128
  inb_S1x256x1_S1x256x1_0_0_0 : ∀ a, (![0, 0, 0] : Fin 3 → Nat) a + S1x256x1.size a ≤ S1x256x1.size a
  h_S1x256x1 : 0 < S1x256x1.numel
  shapeCasts_S1x256x1_S1x256x1 : S1x256x1.ShapeCasts S1x256x1
  broadcasts_S1x256x1_S8x256x1 : S1x256x1.Broadcasts S8x256x1
  shapeCasts_S128x512x128_S128x65536 : S128x512x128.ShapeCasts S128x65536
  bcast_S128x65536_S1x128x65536_1_2 : S128x65536.BroadcastsInDim S1x128x65536 (![1, 2] : Fin 2 → Fin S1x128x65536.rank)
  concatenates_S1x128x65536_S1x128x65536_S2x128x65536_d0 : Shape.Concatenates [S1x128x65536, S1x128x65536] S2x128x65536 0
  dot_S8x256x512_S8x256x128_S8x512x128_1_1_2_2_0_0_wf : DotDims.WF S8x256x512 S8x256x128 S8x512x128 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x1.size a ≤ S128x100096x1.size a
  hwx0_0 : ∀ i : grid0.Coords, EltTy.bits .i32 = 32 ∨ (Rect.block (s := S128x100096x1) S8x256x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1.size a ≤ S1x100096x1.size a
  hwx0_1 : ∀ i : grid0.Coords, EltTy.bits .f32 = 32 ∨ (Rect.block (s := S1x100096x1) S1x256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S1x100096x1.size a
  hwx0_2 : ∀ i : grid0.Coords, EltTy.bits .f32 = 32 ∨ (Rect.block (s := S1x100096x1) S1x256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512x128.size a ≤ S128x512x128.size a
  hwx0_3 : ∀ i : grid0.Coords, EltTy.bits .f32 = 32 ∨ (Rect.block (s := S128x512x128) S8x512x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x512x128.size a ≤ S128x512x128.size a
  hwx0_4 : ∀ i : grid0.Coords, EltTy.bits .f32 = 32 ∨ (Rect.block (s := S128x512x128) S8x512x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x512x128.size a ≤ S128x512x128.size a
  hwx0_5 : ∀ i : grid0.Coords, EltTy.bits .f32 = 32 ∨ (Rect.block (s := S128x512x128) S8x512x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x512x128.size a ≤ S128x512x128.size a
  hwx0_6 : ∀ i : grid0.Coords, EltTy.bits .f32 = 32 ∨ (Rect.block (s := S128x512x128) S8x512x128.size (cc0_transform_6 i) (hinb0_6 i)).WholeWords (EltTy.packing .f32)

variable [Facts₀]

def dot_S8x256x512_S8x256x128_S8x512x128_1_1_2_2_0_0 : DotDims S8x256x512 S8x256x128 S8x512x128 where
  lhsContracting := [1]
  rhsContracting := [1]
  lhsNonContracting := [2]
  rhsNonContracting := [2]
  lhsBatch := [0]
  rhsBatch := [0]
  wf := dot_S8x256x512_S8x256x128_S8x512x128_1_1_2_2_0_0_wf

abbrev win0_0 : Pipeline.Window sig grid0 :=
  Pipeline.Window.ofSpec (Memref.whole main_v2) S8x256x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S8x512x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S8x512x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9_0) S8x512x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_1) S8x512x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S128x65536 : Shape := ⟨2, ![128, 65536]⟩
abbrev S100000x128 : Shape := ⟨2, ![100000, 128]⟩
abbrev S100000 : Shape := ⟨1, ![100000]⟩
abbrev S128 : Shape := ⟨1, ![128]⟩
abbrev S1x128 : Shape := ⟨2, ![1, 128]⟩
abbrev S100000x1 : Shape := ⟨2, ![100000, 1]⟩
abbrev S_ : Shape := ⟨0, ![]⟩
abbrev S100000x128x1 : Shape := ⟨3, ![100000, 128, 1]⟩
abbrev S100000x128x2 : Shape := ⟨3, ![100000, 128, 2]⟩
abbrev S1x128x65536 : Shape := ⟨3, ![1, 128, 65536]⟩
abbrev S2x128x65536 : Shape := ⟨3, ![2, 128, 65536]⟩

abbrev nBuf : Space → Nat
  | .hbm => 52
  | .vmem => 0
  | .smem => 0
  | _ => 0

abbrev bufTy : (tb : Table) → Fin (tcTables nBuf tb) → BufTy
  | .hbm, ⟨0, _⟩ => ⟨S128x65536, .f32⟩
  | .hbm, ⟨1, _⟩ => ⟨S128x65536, .f32⟩
  | .hbm, ⟨2, _⟩ => ⟨S100000x128, .i32⟩
  | .hbm, ⟨3, _⟩ => ⟨S100000, .f32⟩
  | .hbm, ⟨4, _⟩ => ⟨S100000, .f32⟩
  | .hbm, ⟨5, _⟩ => ⟨S128, .i32⟩
  | .hbm, ⟨6, _⟩ => ⟨S1x128, .i32⟩
  | .hbm, ⟨7, _⟩ => ⟨S100000x1, .f32⟩
  | .hbm, ⟨8, _⟩ => ⟨S_, .i32⟩
  | .hbm, ⟨9, _⟩ => ⟨S1x128, .i32⟩
  | .hbm, ⟨10, _⟩ => ⟨S1x128, .i1⟩
  | .hbm, ⟨11, _⟩ => ⟨S_, .i32⟩
  | .hbm, ⟨12, _⟩ => ⟨S1x128, .i32⟩
  | .hbm, ⟨13, _⟩ => ⟨S1x128, .i32⟩
  | .hbm, ⟨14, _⟩ => ⟨S1x128, .i32⟩
  | .hbm, ⟨15, _⟩ => ⟨S_, .i32⟩
  | .hbm, ⟨16, _⟩ => ⟨S100000x128, .i32⟩
  | .hbm, ⟨17, _⟩ => ⟨S100000x128, .i1⟩
  | .hbm, ⟨18, _⟩ => ⟨S_, .i32⟩
  | .hbm, ⟨19, _⟩ => ⟨S100000x128, .i32⟩
  | .hbm, ⟨20, _⟩ => ⟨S100000x128, .i32⟩
  | .hbm, ⟨21, _⟩ => ⟨S100000x128, .i32⟩
  | .hbm, ⟨22, _⟩ => ⟨S100000x128, .i32⟩
  | .hbm, ⟨23, _⟩ => ⟨S100000x128x1, .i32⟩
  | .hbm, ⟨24, _⟩ => ⟨S100000x128x1, .i32⟩
  | .hbm, ⟨25, _⟩ => ⟨S100000x128x2, .i32⟩
  | .hbm, ⟨26, _⟩ => ⟨S100000x128, .f32⟩
  | .hbm, ⟨27, _⟩ => ⟨S128x65536, .f32⟩
  | .hbm, ⟨28, _⟩ => ⟨S100000x1, .f32⟩
  | .hbm, ⟨29, _⟩ => ⟨S_, .i32⟩
  | .hbm, ⟨30, _⟩ => ⟨S1x128, .i32⟩
  | .hbm, ⟨31, _⟩ => ⟨S1x128, .i1⟩
  | .hbm, ⟨32, _⟩ => ⟨S_, .i32⟩
  | .hbm, ⟨33, _⟩ => ⟨S1x128, .i32⟩
  | .hbm, ⟨34, _⟩ => ⟨S1x128, .i32⟩
  | .hbm, ⟨35, _⟩ => ⟨S1x128, .i32⟩
  | .hbm, ⟨36, _⟩ => ⟨S_, .i32⟩
  | .hbm, ⟨37, _⟩ => ⟨S100000x128, .i32⟩
  | .hbm, ⟨38, _⟩ => ⟨S100000x128, .i1⟩
  | .hbm, ⟨39, _⟩ => ⟨S_, .i32⟩
  | .hbm, ⟨40, _⟩ => ⟨S100000x128, .i32⟩
  | .hbm, ⟨41, _⟩ => ⟨S100000x128, .i32⟩
  | .hbm, ⟨42, _⟩ => ⟨S100000x128, .i32⟩
  | .hbm, ⟨43, _⟩ => ⟨S100000x128, .i32⟩
  | .hbm, ⟨44, _⟩ => ⟨S100000x128x1, .i32⟩
  | .hbm, ⟨45, _⟩ => ⟨S100000x128x1, .i32⟩
  | .hbm, ⟨46, _⟩ => ⟨S100000x128x2, .i32⟩
  | .hbm, ⟨47, _⟩ => ⟨S100000x128, .f32⟩
  | .hbm, ⟨48, _⟩ => ⟨S128x65536, .f32⟩
  | .hbm, ⟨49, _⟩ => ⟨S1x128x65536, .f32⟩
  | .hbm, ⟨50, _⟩ => ⟨S1x128x65536, .f32⟩
  | .hbm, ⟨51, _⟩ => ⟨S2x128x65536, .f32⟩
  | _, _ => ⟨S128x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_c_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_c_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S100000_S100000x1_0 : S100000.BroadcastsInDim S100000x1 (![0] : Fin 1 → Fin S100000x1.rank)
  bcast_S_S1x128 : S_.BroadcastsInDim S1x128 (![] : Fin 0 → Fin S1x128.rank)
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  bcast_S100000x128_S100000x128x1_0_1 : S100000x128.BroadcastsInDim S100000x128x1 (![0, 1] : Fin 2 → Fin S100000x128x1.rank)
  concatenates_S100000x128x1_S100000x128x1_S100000x128x2_d2 : Shape.Concatenates [S100000x128x1, S100000x128x1] S100000x128x2 2
  bcast_S100000x1_S100000x128_0_1 : S100000x1.BroadcastsInDim S100000x128 (![0, 1] : Fin 2 → Fin S100000x128.rank)
  bcast_S128x65536_S1x128x65536_1_2 : S128x65536.BroadcastsInDim S1x128x65536 (![1, 2] : Fin 2 → Fin S1x128x65536.rank)
  concatenates_S1x128x65536_S1x128x65536_S2x128x65536_d0 : Shape.Concatenates [S1x128x65536, S1x128x65536] S2x128x65536 0
  scatter_S128x65536_S100000x128x2_S100000x128_n_01_01_2_wf : ScatterDims.WF S128x65536 S100000x128x2 S100000x128 [] [0, 1] [0, 1] 2

variable [Facts₀]

def scatter_S128x65536_S100000x128x2_S100000x128_n_01_01_2 : ScatterDims S128x65536 S100000x128x2 S100000x128 where
  updateWindowDims := []
  insertedWindowDims := [0, 1]
  scatterDimsToOperandDims := [0, 1]
  indexVectorDim := 2
  wf := scatter_S128x65536_S100000x128x2_S100000x128_n_01_01_2_wf

class Facts : Prop extends Facts₀ where

variable [Facts]
-- ==== Proof.PreDecode.lean ====
/-
  What the precondition says of the index words: every one of the 100000 × 128 words lies in [0, 65536), the
  range of positions of a table row.  The precondition is a conjunction of `all`-reductions; its last two conjuncts
  compare every word with 0 (signed ≥) and with 65536 (signed <).
-/
import proofs.«415038_j3642132267698_1_alg».proof.Pre_finite_inputs
import proofs.«415038_j3642132267698_1_alg».proof.Proof.Gen.Pre_finite_inputs
import Idealize.ShloMosaic.Lib.ReduceAll
import Idealize.ShloMosaic.Lib.StableHlo.Predicate
import Idealize.ShloMosaic.Lib.ValueIdx

noncomputable section

namespace Cert.Pre_finite_inputs.Decode

open Idealize.ShloMosaic Cert.Pre_finite_inputs

/-- A rank-0 shape has one index. -/
private instance subsingleton_S_Idx : Subsingleton S_.Idx := ⟨fun a b => funext fun d => d.elim0⟩

/-- Under the precondition every index word, read as a signed integer, is at least 0 and below 65536. -/
theorem range_of_pre {F : FTy → Type} [FloatOps F] (a0 a1 : FVec F S128x65536 .f32) (idx : IVec S100000x128 32)
    (d0 d1 : FVec F S100000 .f32) (h : fn (F := F) a0 a1 idx d0 d1 = fun _ => 1#1) (i : S100000x128.Idx) :
    0 ≤ (idx i).toInt ∧ (idx i).toInt < 65536 := by
  have h0 := congrFun h ValueIdx.ix0
  dsimp only [fn, fn_part1] at h0
  -- the last two conjuncts of the chain
  obtain ⟨h1, hlt⟩ := IntOp.andi_eq_one.1 h0
  obtain ⟨_, hge⟩ := IntOp.andi_eq_one.1 h1
  -- each all-reduction that is 1 had a 1 at every index; the broadcast constant reads as the constant
  have hge' : IntOp.cmpi .sge (idx i) 0#32 = 1#1 := Host.reduce_andi_all _ _ _ _ _ hge i
  have hlt' : IntOp.cmpi .slt (idx i) 65536#32 = 1#1 := Host.reduce_andi_all _ _ _ _ _ hlt i
  have z0 : (0#32 : BitVec 32).toInt = 0 := by decide
  have z1 : (65536#32 : BitVec 32).toInt = 65536 := by decide
  rw [IntOp.cmpi_sge, z0] at hge'
  rw [IntOp.cmpi_slt, z1] at hlt'
  exact ⟨hge', hlt'⟩

end Cert.Pre_finite_inputs.Decode

end
-- ==== Proof.LibBlockedSum.lean ====
/-
  Sums over a blocked index.  A sum over `Fin N` with `N = n · m` is the double sum over `n` blocks of `m`
  positions, and an accumulation that starts at block 0 and adds one block after another reaches the whole sum:
  both over any additive commutative monoid (no subtraction and no finiteness are used, so they hold over the
  extended reals as they stand).
-/
import Mathlib.Data.Fintype.BigOperators
import Mathlib.Logic.Equiv.Fin.Basic
import Mathlib.Algebra.BigOperators.Group.Finset.Piecewise
import Mathlib.Algebra.BigOperators.Fin

open scoped BigOperators

namespace Cert.LibBlockedSum

variable {M : Type*} [AddCommMonoid M]

/-- Position `b` of block `a`, the blocks `m` long, as an index below `N = n · m`: `a · m + b`. -/
def blockIdx {N : ℕ} (n m : ℕ) (h : n * m = N) (a : Fin n) (b : Fin m) : Fin N :=
  ⟨a.val * m + b.val, by
    have ha : a.val + 1 ≤ n := a.isLt
    have hb : b.val < m := b.isLt
    calc a.val * m + b.val < a.val * m + m := Nat.add_lt_add_left hb _
      _ = (a.val + 1) * m := (Nat.succ_mul _ _).symm
      _ ≤ n * m := Nat.mul_le_mul_right m ha
      _ = N := h⟩

/-- Its value. -/
theorem blockIdx_val {N : ℕ} (n m : ℕ) (h : n * m = N) (a : Fin n) (b : Fin m) :
    (blockIdx n m h a b).val = a.val * m + b.val := rfl

/-- A sum over `Fin N`, `N = n · m`, is the double sum over the `n` blocks and the `m` positions of a block. -/
theorem sum_blocks {N : ℕ} (n m : ℕ) (h : n * m = N) (f : Fin N → M) :
    ∑ k : Fin N, f k = ∑ a : Fin n, ∑ b : Fin m, f (blockIdx n m h a b) := by
  subst h
  rw [← Equiv.sum_comp finProdFinEquiv f, Fintype.sum_prod_type]
  refine Finset.sum_congr rfl fun a _ => Finset.sum_congr rfl fun b _ => congrArg f (Fin.ext ?_)
  show b.val + m * a.val = a.val * m + b.val
  rw [Nat.add_comm, Nat.mul_comm]

/-- The sum of the terms `g 0, …, g k` of `g : Fin n → M`, written as a sum over all of `Fin n` with the later terms
    dropped (so that no index type depends on `k`). -/
def upto (n : ℕ) (g : Fin n → M) (k : ℕ) : M := ∑ a : Fin n, if a.val ≤ k then g a else 0

/-- Up to 0 it is the first term; -/
theorem upto_zero (n : ℕ) (g : Fin n → M) (h : 0 < n) : upto n g 0 = g ⟨0, h⟩ := by
  unfold upto
  rw [Finset.sum_eq_single (⟨0, h⟩ : Fin n)]
  · exact if_pos (Nat.le_refl 0)
  · intro b _ hb
    exact if_neg fun hle => hb (Fin.ext (Nat.le_zero.mp hle))
  · intro hnm; exact absurd (Finset.mem_univ _) hnm

/-- one step further it takes the next term; -/
theorem upto_succ (n : ℕ) (g : Fin n → M) (k : ℕ) (h : k + 1 < n) :
    upto n g (k + 1) = upto n g k + g ⟨k + 1, h⟩ := by
  unfold upto
  have e : ∀ a : Fin n, (if a.val ≤ k + 1 then g a else 0)
      = (if a.val ≤ k then g a else 0) + (if a = (⟨k + 1, h⟩ : Fin n) then g a else 0) := by
    intro a
    by_cases h1 : a.val ≤ k
    · have h2 : a ≠ (⟨k + 1, h⟩ : Fin n) := fun e => by
        have e' : a.val = k + 1 := congrArg Fin.val e
        omega
      rw [if_pos h1, if_pos (Nat.le_succ_of_le h1), if_neg h2, add_zero]
    · by_cases h3 : a = (⟨k + 1, h⟩ : Fin n)
      · have e' : a.val = k + 1 := congrArg Fin.val h3
        rw [if_pos (Nat.le_of_eq e'), if_neg h1, if_pos h3, zero_add]
      · have h4 : ¬a.val ≤ k + 1 := fun hle => h3 (Fin.ext (by show a.val = k + 1; omega))
        rw [if_neg h1, if_neg h4, if_neg h3, add_zero]
  rw [Finset.sum_congr rfl (fun a _ => e a), Finset.sum_add_distrib, Finset.sum_ite_eq']
  rw [if_pos (Finset.mem_univ _)]

/-- and once `k` is the last position it is the whole sum. -/
theorem upto_last (n : ℕ) (g : Fin n → M) (k : ℕ) (h : n ≤ k + 1) : upto n g k = ∑ a : Fin n, g a := by
  unfold upto
  exact Finset.sum_congr rfl fun a _ => if_pos (by have := a.isLt; omega)

end Cert.LibBlockedSum
-- ==== Proof.Spec.lean ====
/-
  The arithmetic of a scatter-add into a table of 65536 positions per row, away from any program.

  A table position r in [0, 65536) is the pair (r / 128, r mod 128) of a block in [0, 512) and an offset in
  [0, 128).  A 32-bit word v with 0 ≤ v < 65536 addresses position r exactly when its arithmetic shift by 7 is
  the block and its low seven bits are the offset.  So the product of the two one-hot factors
  [v >> 7 = block] · ([v & 127 = offset] · d) is d where v = r and 0 elsewhere: the addend of a scatter-add.
  Over the extended reals 0 · x = 0 and 1 · x = x for every x, infinities included, so no finiteness is used.

  The samples come padded from 100000 to 100096 = 391 · 256 with index word 0 and update 0: the padding adds 0
  at position 0 and nothing elsewhere, so the padded sum is the sum over the 100000 samples; and the padded sum
  is the sum over 391 tiles of 256.
-/
import Idealize.ShloMosaic.PureOps.Ideal
import Idealize.ShloMosaic.Lib.ValueIdx
import Mathlib.Algebra.BigOperators.Fin
import proofs.«415038_j3642132267698_1_alg».proof.Proof.LibBlockedSum

noncomputable section

namespace Cert.ScatterSpec

open Idealize.ShloMosaic
open scoped BigOperators

/-- A word comparison read as a float: 1 where the two words agree, 0 where they differ. -/
def hot (x y : BitVec 32) : EReal := ((((IntOp.cmpi .eq x y).setWidth 32).toInt : ℝ) : EReal)

theorem hot_eq (x y : BitVec 32) : hot x y = if x = y then 1 else 0 := by
  unfold hot IntOp.cmpi
  by_cases h : x = y
  · -- equal words: the comparison bit is 1, and widened and read signed it is the integer 1
    subst h
    rw [if_pos rfl]
    have e : ((BitVec.ofBool (x == x)).setWidth 32).toInt = 1 := by
      rw [beq_self_eq_true]; decide
    rw [e]; simp
  · -- different words: the comparison bit is 0
    rw [if_neg h]
    have e : ((BitVec.ofBool (x == y)).setWidth 32).toInt = 0 := by
      rw [beq_eq_false_iff_ne.mpr h]; decide
    rw [e]; simp

/-- What a sample with index word `w` and update `d` adds at table position `r`. -/
def addend (w : BitVec 32) (d : EReal) (r : ℕ) : EReal := if w.toNat = r then d else 0

/-- A word in [0, 65536) has block `blk` and offset `off` exactly when it is `blk · 128 + off`. -/
theorem split_iff (v : BitVec 32) (h0 : 0 ≤ v.toInt) (h1 : v.toInt < 65536) (blk : Fin 512) (off : Fin 128) :
    (IntOp.shrsi .vector v 7#32 = BitVec.ofNat 32 blk.val ∧ IntOp.andi v 127#32 = BitVec.ofNat 32 off.val)
      ↔ v.toNat = blk.val * 128 + off.val := by
  -- a non-negative signed reading means the sign bit is clear, and then the signed and unsigned readings agree
  have hm : v.msb = false := by
    rw [BitVec.toInt_eq_msb_cond] at h0
    by_contra hc
    have hc' : v.msb = true := by simpa using hc
    rw [hc', if_pos rfl] at h0
    have := v.isLt
    omega
  have hn : v.toNat < 65536 := by
    rw [BitVec.toInt_eq_msb_cond, hm] at h1
    simp at h1
    omega
  -- with the sign bit clear the arithmetic shift is the logical one
  have hs : IntOp.shrsi .vector v 7#32 = v >>> 7 := by
    unfold IntOp.shrsi
    rw [if_pos (by decide)]
    rw [BitVec.sshiftRight_eq', BitVec.sshiftRight_eq_of_msb_false hm]
    rfl
  have ha : IntOp.andi v 127#32 = v &&& 127#32 := rfl
  rw [hs, ha]
  have hb := blk.isLt
  have ho := off.isLt
  -- the shift by 7 is the quotient by 128, the mask with 127 the remainder
  have e1 : (v >>> 7).toNat = v.toNat / 128 := by
    rw [BitVec.toNat_ushiftRight, Nat.shiftRight_eq_div_pow]
  have e2 : (v &&& 127#32).toNat = v.toNat % 128 := by
    rw [BitVec.toNat_and]
    exact Nat.and_two_pow_sub_one_eq_mod v.toNat 7
  have e3 : (BitVec.ofNat 32 blk.val).toNat = blk.val := by
    rw [BitVec.toNat_ofNat]; exact Nat.mod_eq_of_lt (by omega)
  have e4 : (BitVec.ofNat 32 off.val).toNat = off.val := by
    rw [BitVec.toNat_ofNat]; exact Nat.mod_eq_of_lt (by omega)
  -- so the two word equations say v / 128 = blk and v mod 128 = off, which is v = blk · 128 + off
  rw [← BitVec.toNat_inj, ← BitVec.toNat_inj, e1, e2, e3, e4]
  omega

/-- The product of the two one-hot factors and the update is the scatter's addend. -/
theorem term_eq (v : BitVec 32) (h0 : 0 ≤ v.toInt) (h1 : v.toInt < 65536) (blk : Fin 512) (off : Fin 128) (d : EReal) :
    hot (IntOp.shrsi .vector v 7#32) (BitVec.ofNat 32 blk.val) * (hot (IntOp.andi v 127#32) (BitVec.ofNat 32 off.val) * d)
      = addend v d (blk.val * 128 + off.val) := by
  rw [hot_eq, hot_eq]
  unfold addend
  by_cases ha : IntOp.shrsi .vector v 7#32 = BitVec.ofNat 32 blk.val
  · by_cases hb : IntOp.andi v 127#32 = BitVec.ofNat 32 off.val
    · -- both factors are 1 and v is the position: 1 · (1 · d) = d
      rw [if_pos ha, if_pos hb, if_pos ((split_iff v h0 h1 blk off).mp ⟨ha, hb⟩), one_mul, one_mul]
    · -- the offset's factor is 0 and v is another position: 1 · (0 · d) = 0
      rw [if_pos ha, if_neg hb, if_neg (fun e => hb ((split_iff v h0 h1 blk off).mpr e).2), zero_mul, mul_zero]
  · -- the block's factor is 0 and v is another position: 0 · x = 0
    rw [if_neg ha, if_neg (fun e => ha ((split_iff v h0 h1 blk off).mpr e).1), zero_mul]

/-- The product the matrix unit forms for one sample, table block and offset: the block's one-hot factor times the
    offset's one-hot factor times the sample's update. -/
def tileTerm (w : BitVec 32) (d : EReal) (blk : Fin 512) (off : Fin 128) : EReal :=
  hot (IntOp.shrsi .vector w 7#32) (BitVec.ofNat 32 blk.val) * (hot (IntOp.andi w 127#32) (BitVec.ofNat 32 off.val) * d)

theorem tileTerm_eq (w : BitVec 32) (h0 : 0 ≤ w.toInt) (h1 : w.toInt < 65536) (d : EReal) (blk : Fin 512) (off : Fin 128) :
    tileTerm w d blk off = addend w d (blk.val * 128 + off.val) := term_eq w h0 h1 blk off d

/-- Sample `s` below 100000 as a position of the padded axis. -/
def padIdx (s : Fin 100000) : Fin 100096 := ⟨s.val, Nat.lt_of_lt_of_le s.isLt (by decide)⟩

/-- A sum over `n + k` positions whose last `k` terms are 0 is the sum over the first `n`. -/
private theorem sum_castAdd_of_tail_zero {M : Type*} [AddCommMonoid M] (n k : ℕ) (f : Fin (n + k) → M)
    (h : ∀ j : Fin k, f (Fin.natAdd n j) = 0) : ∑ K : Fin (n + k), f K = ∑ s : Fin n, f (Fin.castAdd k s) := by
  rw [Fin.sum_univ_add, Finset.sum_eq_zero (fun j _ => h j), add_zero]

/-- An update of 0 adds 0 at every position, whichever position its word names. -/
private theorem addend_zero (w : BitVec 32) (r : ℕ) : addend w 0 r = 0 := by
  unfold addend; split <;> rfl

/-- The padding adds nothing: the sum over the 100096 padded samples is the sum over the 100000 samples. -/
theorem sum_padded (RP : Fin 100096 → BitVec 32) (DP : Fin 100096 → EReal) (idx : Fin 100000 → BitVec 32)
    (d : Fin 100000 → EReal) (hR : ∀ s : Fin 100000, RP (padIdx s) = idx s) (hD : ∀ s : Fin 100000, DP (padIdx s) = d s)
    (hD0 : ∀ K : Fin 100096, 100000 ≤ K.val → DP K = 0) (r : ℕ) :
    ∑ K : Fin 100096, addend (RP K) (DP K) r = ∑ s : Fin 100000, addend (idx s) (d s) r := by
  -- 100096 = 100000 + 96; on the last 96 positions the update is 0, so each of them adds 0
  have key := sum_castAdd_of_tail_zero 100000 96 (fun K : Fin (100000 + 96) => addend (RP K) (DP K) r)
    (fun j => by
      show addend (RP (Fin.natAdd 100000 j)) (DP (Fin.natAdd 100000 j)) r = 0
      rw [hD0 (Fin.natAdd 100000 j) (Nat.le_add_right 100000 j.val)]
      exact addend_zero _ r)
  -- and on the first 100000 the padded word and update are the sample's
  refine key.trans (Finset.sum_congr rfl fun s _ => ?_)
  show addend (RP (padIdx s)) (DP (padIdx s)) r = addend (idx s) (d s) r
  rw [hR s, hD s]

/-- Position `b` of tile `a` on the padded axis: `a · 256 + b`. -/
abbrev tilePos (a : Fin 391) (b : Fin 256) : Fin 100096 := Cert.LibBlockedSum.blockIdx 391 256 rfl a b

/-- What tile `a` adds. -/
def tileSum (f : Fin 100096 → EReal) (a : Fin 391) : EReal := ∑ b : Fin 256, f (tilePos a b)

/-- What the tiles up to `k` have added. -/
def uptoTile (f : Fin 100096 → EReal) (k : ℕ) : EReal := Cert.LibBlockedSum.upto 391 (tileSum f) k

theorem uptoTile_zero (f : Fin 100096 → EReal) : uptoTile f 0 = tileSum f ⟨0, by decide⟩ :=
  Cert.LibBlockedSum.upto_zero 391 (tileSum f) (by decide)

theorem uptoTile_succ (f : Fin 100096 → EReal) (k : ℕ) (h : k + 1 < 391) :
    uptoTile f (k + 1) = uptoTile f k + tileSum f ⟨k + 1, h⟩ :=
  Cert.LibBlockedSum.upto_succ 391 (tileSum f) k h

theorem uptoTile_last (f : Fin 100096 → EReal) : uptoTile f 390 = ∑ K : Fin 100096, f K := by
  unfold uptoTile
  rw [Cert.LibBlockedSum.upto_last 391 (tileSum f) 390 (by decide)]
  exact (Cert.LibBlockedSum.sum_blocks 391 256 rfl f).symm

/-! ## The table after the scatter-add -/

open Idealize.ShloMosaic.ValueIdx

/-- Entry (e, r) of a table after every sample `s` has added its update `d s` at the position its index word for row `e`
    names: the old entry plus the updates of the samples whose word is `r`. -/
def scat (tbl : Fin 128 → Fin 65536 → EReal) (idx : Fin 100000 → Fin 128 → BitVec 32) (d : Fin 100000 → EReal)
    (e : Fin 128) (r : Fin 65536) : EReal :=
  tbl e r + ∑ s : Fin 100000, addend (idx s e) (d s) r.val

/-- The two tables after their scatter-adds, stacked: plane 0 is `a` with `da` added, plane 1 is `b` with `db` added,
    both at the same index words. -/
def stacked (a b : (⟨2, ![128, 65536]⟩ : Shape).Idx → EReal) (idx : (⟨2, ![100000, 128]⟩ : Shape).Idx → BitVec 32)
    (da db : (⟨1, ![100000]⟩ : Shape).Idx → EReal) : (⟨3, ![2, 128, 65536]⟩ : Shape).Idx → EReal :=
  fun i =>
    if (i 0).val = 0 then scat (fun e r => a (ix2 e r)) (fun s e => idx (ix2 s e)) (fun s => da (ix1 s)) (i 1) (i 2)
    else scat (fun e r => b (ix2 e r)) (fun s e => idx (ix2 s e)) (fun s => db (ix1 s)) (i 1) (i 2)

end Cert.ScatterSpec

end
-- ==== Proof.RefValue.lean ====
/-
  The reference program's result, over the extended reals, is the stacked pair of scatter-added tables.

  The reference builds, for every (sample s, row e), the index pair (e, word of (s, e)) — both components first mapped
  by "add the extent where negative", which changes nothing for a row number and nothing for a word in [0, 65536) —
  and scatters the update of sample s, broadcast along the rows, into the table by addition.  Over the extended reals
  the scatter is exact: each table entry plus the sum of the updates whose index pair is that entry.  The pair of
  (s, e) names entry (e, word), so entry (e, r) receives the updates of the samples s whose word for row e is r.
-/
import proofs.«415038_j3642132267698_1_alg».proof.Proof.Gen.ReferenceIdeal.Run
import proofs.«415038_j3642132267698_1_alg».proof.Proof.Gen.ReferenceIdeal.Read
import proofs.«415038_j3642132267698_1_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.ReferenceIdeal.RV

open Idealize.ShloMosaic Idealize.ShloMosaic.TcCoe Idealize.SL.Sem Idealize.ShloMosaic.ValueIdx
open Cert.ReferenceIdeal Cert.ReferenceIdeal.Gen Cert.ScatterSpec
open Idealize.ShloMosaic.StableHlo.Predicate

variable (m : (ℓ : Loc nD τ sig) → Buf (Elt Ideal) ℓ) (ρ : Dev nD → PrngReg)

/-- The scatter's dimension numbers: no window axes, both table axes inserted, index component c addresses table axis c. -/
private abbrev dS : ScatterDims S128x65536 S100000x128x2 S100000x128 := scatter_S128x65536_S100000x128x2_S100000x128_n_01_01_2

/-- Both table axes are inserted window axes: an update has no window coordinate on either. -/
private theorem window_zero (j : S100000x128.Idx) (a : Fin S128x65536.rank) : dS.window j a = 0 := by
  unfold ScatterDims.window
  have hk : dS.sKept = [] := by decide
  rw [dif_neg (by rw [hk]; exact List.not_mem_nil)]

/-- The start on table axis 0 for the update of (sample s, row e') is component 0 of its index pair, read signed. -/
private theorem start_zero (idx : IVec S100000x128x2 32) (s : Fin 100000) (e' : Fin 128) :
    dS.start (ix2 s e') idx 0 = (idx (ix3 s e' 0)).toInt := by
  unfold ScatterDims.start
  rw [dif_pos (show (0 : Fin S128x65536.rank) ∈ dS.scatterDimsToOperandDims by decide)]
  congr 2
  funext b
  refine Fin.ext ?_
  match b with
  | ⟨0, _⟩ => rfl
  | ⟨1, _⟩ => rfl
  | ⟨2, _⟩ => rfl

/-- The start on table axis 1 is component 1 of the index pair, read signed. -/
private theorem start_one (idx : IVec S100000x128x2 32) (s : Fin 100000) (e' : Fin 128) :
    dS.start (ix2 s e') idx 1 = (idx (ix3 s e' 1)).toInt := by
  unfold ScatterDims.start
  rw [dif_pos (show (1 : Fin S128x65536.rank) ∈ dS.scatterDimsToOperandDims by decide)]
  congr 2
  funext b
  refine Fin.ext ?_
  match b with
  | ⟨0, _⟩ => rfl
  | ⟨1, _⟩ => rfl
  | ⟨2, _⟩ => rfl

private theorem axis_cases (a : Fin S128x65536.rank) : a = 0 ∨ a = 1 := by
  have h : a.val < 2 := a.isLt
  rcases (by omega : a.val = 0 ∨ a.val = 1) with h | h
  · exact Or.inl (Fin.ext h)
  · exact Or.inr (Fin.ext h)

/-- The update of (sample s, row e') lands at table entry (e, r) exactly when its index pair, read signed, is (e, r):
    a pair outside the table lands nowhere, and no entry's coordinates are outside the table. -/
private theorem resultIdx_iff (idx : IVec S100000x128x2 32) (s : Fin 100000) (e' e : Fin 128) (r : Fin 65536) :
    dS.resultIdx? (ix2 s e') idx = some (ix2 e r)
      ↔ (idx (ix3 s e' 0)).toInt = (e.val : Int) ∧ (idx (ix3 s e' 1)).toInt = (r.val : Int) := by
  have h0 := start_zero idx s e'
  have h1 := start_one idx s e'
  have w0 := window_zero (ix2 s e') 0
  have w1 := window_zero (ix2 s e') 1
  have he := e.isLt
  have hr := r.isLt
  unfold ScatterDims.resultIdx?
  constructor
  · intro h
    split at h
    · next hb =>
      have hi := Option.some.inj h
      have c0 : (dS.start (ix2 s e') idx 0 + (dS.window (ix2 s e') 0 : Int)).toNat = e.val :=
        congrArg (fun f : S128x65536.Idx => (f 0).val) hi
      have c1 : (dS.start (ix2 s e') idx 1 + (dS.window (ix2 s e') 1 : Int)).toNat = r.val :=
        congrArg (fun f : S128x65536.Idx => (f 1).val) hi
      have b0 := (hb 0).1
      have b1 := (hb 1).1
      rw [h0, w0] at c0 b0
      rw [h1, w1] at c1 b1
      constructor <;> omega
    · exact absurd h (by simp)
  · rintro ⟨g0, g1⟩
    have hb : ∀ a, 0 ≤ dS.start (ix2 s e') idx a + (dS.window (ix2 s e') a : Int)
        ∧ dS.start (ix2 s e') idx a + (dS.window (ix2 s e') a : Int) < S128x65536.size a := by
      intro a
      rcases axis_cases a with rfl | rfl
      · rw [h0, w0, g0]
        show (0 : Int) ≤ (e.val : Int) + ((0 : Nat) : Int) ∧ (e.val : Int) + ((0 : Nat) : Int) < ((128 : Nat) : Int)
        omega
      · rw [h1, w1, g1]
        show (0 : Int) ≤ (r.val : Int) + ((0 : Nat) : Int) ∧ (r.val : Int) + ((0 : Nat) : Int) < ((65536 : Nat) : Int)
        omega
    rw [dif_pos hb]
    congr 1
    funext a
    refine Fin.ext ?_
    rcases axis_cases a with rfl | rfl
    · show (dS.start (ix2 s e') idx 0 + (dS.window (ix2 s e') 0 : Int)).toNat = e.val
      rw [h0, w0, g0]; omega
    · show (dS.start (ix2 s e') idx 1 + (dS.window (ix2 s e') 1 : Int)).toNat = r.val
      rw [h1, w1, g1]; omega

/-- "Add the extent where negative" leaves a word with non-negative signed reading as it is. -/
private theorem wrap_nonneg (w c : BitVec 32) (h : 0 ≤ w.toInt) :
    Scalar.select (IntOp.cmpi .slt w 0#32) (IntOp.addi w c) w = w := by
  have hc : IntOp.cmpi .slt w 0#32 = 0#1 := by
    unfold IntOp.cmpi
    have hs : w.slt 0#32 = false := by
      unfold BitVec.slt
      exact decide_eq_false (by rw [BitVec.toInt_zero]; omega)
    rw [hs]; rfl
  rw [hc, select_zero]

/-- Component 0 of the index pair of (sample s, row e') is the row number e' as a word. -/
private theorem pair_zero (x2 : S100000x128.Idx → BitVec 32) (s : Fin 100000) (e' : Fin 128) :
    Read.val_main_v16 (F := Ideal) x2 (ix3 s e' 0) = BitVec.ofNat 32 e'.val := by
  unfold Read.val_main_v16
  rw [concatenate_pair_apply_left 2 _ _ concatenates_S100000x128x1_S100000x128x1_S100000x128x2_d2 (ix3 s e' 0) rfl
    (ix3 s e' 0 : S100000x128x1.Idx) (fun b => by
      match b with
      | ⟨0, _⟩ => rfl
      | ⟨1, _⟩ => rfl
      | ⟨2, _⟩ => rfl)]
  rw [Read.val_main_v14_apply, Read.val_main_v13_apply, Read.val_main_v7_apply, Read.val_main_v4_apply, Read.val_main_v6_apply,
    Read.val_main_v1_apply, Read.val_main_v3_apply, Read.val_main_v5_apply, Read.val_main_v0_apply, Read.val_main_c_apply,
    Read.val_main_c_0_apply]
  show Scalar.select (IntOp.cmpi .slt (BitVec.ofNat 32 e'.val) 0#32) (IntOp.addi (BitVec.ofNat 32 e'.val) 128#32)
      (BitVec.ofNat 32 e'.val) = BitVec.ofNat 32 e'.val
  exact wrap_nonneg _ _ (by rw [toInt_ofNat_small e'.val (by have := e'.isLt; omega)]; omega)

/-- Component 1 of the index pair of (sample s, row e') is the index word of (s, e'), when that word is not negative. -/
private theorem pair_one (x2 : S100000x128.Idx → BitVec 32) (s : Fin 100000) (e' : Fin 128)
    (h : 0 ≤ (x2 (ix2 s e')).toInt) :
    Read.val_main_v16 (F := Ideal) x2 (ix3 s e' 1) = x2 (ix2 s e') := by
  unfold Read.val_main_v16
  rw [concatenate_pair_apply_right 2 _ _ concatenates_S100000x128x1_S100000x128x1_S100000x128x2_d2 (ix3 s e' 1) rfl rfl
    (ix3 s e' 0 : S100000x128x1.Idx) (fun b hb => by
      match b with
      | ⟨0, _⟩ => rfl
      | ⟨1, _⟩ => rfl
      | ⟨2, _⟩ => exact absurd rfl hb) rfl]
  rw [Read.val_main_v15_apply, Read.val_main_v12_apply, Read.val_main_v9_apply, Read.val_main_v11_apply, Read.val_main_v8_apply,
    Read.val_main_v10_apply, Read.val_main_c_1_apply, Read.val_main_c_2_apply]
  have hi : Read.idx_main_v15 (ix3 s e' (0 : Fin 1)) = ix2 s e' := by
    funext a
    match a with
    | ⟨0, _⟩ => rfl
    | ⟨1, _⟩ => rfl
  rw [hi]
  exact wrap_nonneg _ _ h

/-- The update of (sample s, row e) is the update of sample s, broadcast along the rows. -/
private theorem upd_apply (x3 : S100000.Idx → EReal) (s : Fin 100000) (e : Fin 128) :
    Read.val_main_v17 (F := Ideal) x3 (ix2 s e) = x3 (ix1 s) := by
  rw [Read.val_main_v17_apply, Read.val_main_v2_apply]
  congr 1
  funext a
  match a with
  | ⟨0, _⟩ => rfl

/-- With every index word in [0, 65536), the update of (sample s, row e') lands at table entry (e, r) exactly when
    e' is e and the word of (s, e') is r. -/
private theorem lands_iff (x2 : S100000x128.Idx → BitVec 32)
    (hr : ∀ i : S100000x128.Idx, 0 ≤ (x2 i).toInt ∧ (x2 i).toInt < 65536)
    (s : Fin 100000) (e' e : Fin 128) (r : Fin 65536) :
    dS.resultIdx? (ix2 s e') (Read.val_main_v16 (F := Ideal) x2) = some (ix2 e r)
      ↔ e' = e ∧ (x2 (ix2 s e')).toNat = r.val := by
  have hw := hr (ix2 s e')
  have he' := e'.isLt
  -- a word whose signed reading is in [0, 65536) reads the same unsigned
  have hn : (x2 (ix2 s e')).toNat < 2 ^ 31 := by
    have hc := BitVec.toInt_eq_toNat_cond (x2 (ix2 s e'))
    have hl := (x2 (ix2 s e')).isLt
    split at hc <;> omega
  rw [resultIdx_iff, pair_zero, pair_one x2 s e' hw.1, toInt_ofNat_small e'.val (by omega), toInt_eq_toNat_of_lt hn]
  constructor
  · rintro ⟨a, b⟩
    exact ⟨Fin.ext (by omega), by omega⟩
  · rintro ⟨rfl, b⟩
    exact ⟨rfl, by omega⟩

/-- One table after its scatter-add: entry (e, r) is the old entry plus the updates of the samples whose word for
    row e is r. The sum over all (sample, row) pairs that land at (e, r) is a sum over samples of a sum over rows, and
    in the inner sum only row e can land there. -/
private theorem plane (x0 : S128x65536.Idx → EReal) (x2 : S100000x128.Idx → BitVec 32) (x3 : S100000.Idx → EReal)
    (hr : ∀ i : S100000x128.Idx, 0 ≤ (x2 i).toInt ∧ (x2 i).toInt < 65536) (e : Fin 128) (r : Fin 65536) :
    Read.val_main_v18 (F := Ideal) x0 x2 x3 (ix2 e r)
      = scat (fun e r => x0 (ix2 e r)) (fun s e => x2 (ix2 s e)) (fun s => x3 (ix1 s)) e r := by
  show Ideal.hostScatterAdd dS x0 (Read.val_main_v16 (F := Ideal) x2) (Read.val_main_v17 (F := Ideal) x3) (ix2 e r) = _
  unfold Ideal.hostScatterAdd scat
  refine congrArg (fun t => x0 (ix2 e r) + t) ?_
  rw [Finset.sum_filter, sum_idx2]
  refine Finset.sum_congr rfl fun s _ => ?_
  rw [Finset.sum_eq_single e]
  · -- row e: its update lands at (e, r) exactly when the word of (s, e) is r
    rw [upd_apply]
    unfold addend
    by_cases hw : (x2 (ix2 s e)).toNat = r.val
    · rw [if_pos ((lands_iff x2 hr s e e r).2 ⟨rfl, hw⟩), if_pos hw]
    · rw [if_neg (fun h => hw ((lands_iff x2 hr s e e r).1 h).2), if_neg hw]
  · -- another row lands in another row of the table
    intro e' _ hne
    exact if_neg (fun h => hne ((lands_iff x2 hr s e' e r).1 h).1)
  · intro h
    exact absurd (Finset.mem_univ e) h

/-- The reference's result is the stacked pair of scatter-added tables: the final concatenation along the leading axis
    reads plane p from the p-th table, each with a unit leading axis added, and each table is its scatter-add. -/
private theorem value_eq (x0 x1 : S128x65536.Idx → EReal) (x2 : S100000x128.Idx → BitVec 32) (x3 x4 : S100000.Idx → EReal)
    (hr : ∀ i : S100000x128.Idx, 0 ≤ (x2 i).toInt ∧ (x2 i).toInt < 65536) :
    Read.val_main_v38 (F := Ideal) x0 x1 x2 x3 x4 = stacked x0 x1 x2 x3 x4 := by
  funext i
  obtain ⟨p, e, r, rfl⟩ : ∃ (p : Fin 2) (e : Fin 128) (r : Fin 65536), i = ix3 p e r := ⟨i 0, i 1, i 2, eq_ix3 i⟩
  have hi36 : Read.idx_main_v36 (ix3 (0 : Fin 1) e r) = ix2 e r := by
    funext a
    match a with
    | ⟨0, _⟩ => rfl
    | ⟨1, _⟩ => rfl
  have hi37 : Read.idx_main_v37 (ix3 (0 : Fin 1) e r) = ix2 e r := by
    funext a
    match a with
    | ⟨0, _⟩ => rfl
    | ⟨1, _⟩ => rfl
  unfold Read.val_main_v38 stacked
  match p with
  | ⟨0, _⟩ =>
    rw [concatenate_pair_apply_left 0 _ _ concatenates_S1x128x65536_S1x128x65536_S2x128x65536_d0 _ rfl
      (ix3 (0 : Fin 1) e r : S1x128x65536.Idx) (fun b => by
        match b with
        | ⟨0, _⟩ => rfl
        | ⟨1, _⟩ => rfl
        | ⟨2, _⟩ => rfl)]
    rw [Read.val_main_v36_apply, hi36, plane x0 x2 x3 hr e r]
    exact (if_pos rfl).symm
  | ⟨1, _⟩ =>
    rw [concatenate_pair_apply_right 0 _ _ concatenates_S1x128x65536_S1x128x65536_S2x128x65536_d0 _ rfl rfl
      (ix3 (0 : Fin 1) e r : S1x128x65536.Idx) (fun b hb => by
        match b with
        | ⟨0, _⟩ => exact absurd rfl hb
        | ⟨1, _⟩ => rfl
        | ⟨2, _⟩ => rfl) rfl]
    rw [Read.val_main_v37_apply, hi37]
    -- the second table's scatter-add is the first's at the other table and updates: the same index pairs
    show Read.val_main_v18 (F := Ideal) x1 x2 x4 (ix2 e r) = _
    rw [plane x1 x2 x4 hr e r]
    exact (if_neg (show ¬ (1 : Nat) = 0 by decide)).symm

/-- From a memory whose index words all lie in [0, 65536): every weakly fair execution of the reference ends with its
    result at the stacked pair of scatter-added tables of its argument arrays, and the arguments unchanged. -/
theorem run_value
    (hr : ∀ (c : Dev nD) (i : S100000x128.Idx),
      0 ≤ ((m ((c : Thread nD τ).loc main_arg2) : S100000x128.Idx → BitVec 32) i).toInt
        ∧ ((m ((c : Thread nD τ).loc main_arg2) : S100000x128.Idx → BitVec 32) i).toInt < 65536) :
    θ_run defs (onTc (τ := τ) (main (F := Ideal))) ⟨m, fun _ => 0, ρ⟩ fun r => ∀ c : Dev nD,
      r.2.mem ((c : Thread nD τ).loc main_v38)
          = stacked (m ((c : Thread nD τ).loc main_arg0)) (m ((c : Thread nD τ).loc main_arg1))
              (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  exact (θ_run defs _ _).mono (fun _ h c =>
      ⟨(h c).1.trans ((Read.val_main_v38_eq _ _ _ _ _).trans (value_eq _ _ _ _ _ (hr c))), (h c).2⟩)
    (Cert.ReferenceIdeal.Value.run (F := Ideal) m ρ)

end Cert.ReferenceIdeal.RV

end
-- ==== Proof.KGrid.lean ====
/-
  The grid of the pallas_call and what its windows read.

  The grid has 16 row tiles × 391 sample tiles; point t is row tile t / 391 and sample tile t mod 391.  The window of
  the index words moves on both, the windows of the two update vectors on the sample tile only, the windows of the two
  tables and of the two outputs on the row tile only.  So at point t the body sees rows 8 · (t / 391) … + 7 and padded
  samples 256 · (t mod 391) … + 255.
-/
import proofs.«415038_j3642132267698_1_alg».proof.Proof.Gen.KernelIdeal.Frame
import Idealize.ShloMosaic.Lib.ValueIdx
import Idealize.ShloMosaic.Lib.Pipeline.Value
import Idealize.ShloMosaic.Lib.Tactic

set_option maxRecDepth 16384

noncomputable section

namespace Cert.KernelIdeal.KV

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

variable (m : (ℓ : Loc nD τ sig) → Buf (Elt Ideal) ℓ) (ρ : Dev nD → PrngReg)

/-! ## The grid's index maps -/

/-- Point `t` is row tile `t / 391` and sample tile `t mod 391`: the index words' window moves on both, the update
    vectors' windows on the sample tile only, the tables' and the outputs' windows on the row tile only. -/
theorem idx_facts : ∀ t : Fin cfg0.N,
    win0_0.index t (0 : Fin 3) = t.val / 391 ∧ win0_0.index t (1 : Fin 3) = t.val % 391 ∧ win0_0.index t (2 : Fin 3) = 0
    ∧ win0_1.index t (0 : Fin 3) = 0 ∧ win0_1.index t (1 : Fin 3) = t.val % 391 ∧ win0_1.index t (2 : Fin 3) = 0
    ∧ win0_2.index t (0 : Fin 3) = 0 ∧ win0_2.index t (1 : Fin 3) = t.val % 391 ∧ win0_2.index t (2 : Fin 3) = 0
    ∧ win0_3.index t (0 : Fin 3) = t.val / 391 ∧ win0_3.index t (1 : Fin 3) = 0 ∧ win0_3.index t (2 : Fin 3) = 0
    ∧ win0_4.index t (0 : Fin 3) = t.val / 391 ∧ win0_4.index t (1 : Fin 3) = 0 ∧ win0_4.index t (2 : Fin 3) = 0
    ∧ win0_5.index t (0 : Fin 3) = t.val / 391 ∧ win0_5.index t (1 : Fin 3) = 0 ∧ win0_5.index t (2 : Fin 3) = 0
    ∧ win0_6.index t (0 : Fin 3) = t.val / 391 ∧ win0_6.index t (1 : Fin 3) = 0 ∧ win0_6.index t (2 : Fin 3) = 0 :=
  (by decide +kernel : ∀ t : Fin grid0.N, _)

/-- Row `e` of point `t`'s row tile, as a row of the table. -/
def rowOf (t : Fin cfg0.N) (e : Fin 8) : Fin 128 :=
  ⟨8 * (t.val / 391) + e.val, by have hN : cfg0.N = 6256 := N_0; have := t.isLt; have := e.isLt; omega⟩

/-- Sample `k` of point `t`'s sample tile, as a position of the padded sample axis. -/
def sampOf (t : Fin cfg0.N) (k : Fin 256) : Fin 100096 :=
  ⟨256 * (t.val % 391) + k.val, by have := k.isLt; omega⟩

/-! ## The windows' blocks, read off the arrays the call finds -/

theorem rblk_apply (c : Dev nD) (t : Fin cfg0.N) (e : Fin 8) (k : Fin 256) (z : Fin 1) :
    (iblk m c 0 t : S8x256x1.Idx → BitVec 32) (ix3 e k z)
      = (V m c main_v2 : S128x100096x1.Idx → BitVec 32) (ix3 (rowOf t e) (sampOf t k) 0) := by
  obtain ⟨h0, h1, h2, -⟩ := idx_facts t
  unfold iblk
  rw [View.read_apply]
  show V m c main_v2 _ = V m c main_v2 _
  congr 1
  funext a
  apply Fin.ext
  match a with
  | ⟨0, _⟩ => show win0_0.index t (0 : Fin 3) * 8 + 1 * e.val = 8 * (t.val / 391) + e.val; rw [h0]; omega
  | ⟨1, _⟩ => show win0_0.index t (1 : Fin 3) * 256 + 1 * k.val = 256 * (t.val % 391) + k.val; rw [h1]; omega
  | ⟨2, _⟩ => show win0_0.index t (2 : Fin 3) * 1 + 1 * z.val = 0; rw [h2]; have := z.isLt; omega

theorem dablk_apply (c : Dev nD) (t : Fin cfg0.N) (z0 : Fin 1) (k : Fin 256) (z : Fin 1) :
    (iblk m c 1 t : S1x256x1.Idx → EReal) (ix3 z0 k z)
      = (V m c main_v4 : S1x100096x1.Idx → EReal) (ix3 0 (sampOf t k) 0) := by
  obtain ⟨-, -, -, h0, h1, h2, -⟩ := idx_facts t
  unfold iblk
  rw [View.read_apply]
  show V m c main_v4 _ = V m c main_v4 _
  congr 1
  funext a
  apply Fin.ext
  match a with
  | ⟨0, _⟩ => show win0_1.index t (0 : Fin 3) * 1 + 1 * z0.val = 0; rw [h0]; have := z0.isLt; omega
  | ⟨1, _⟩ => show win0_1.index t (1 : Fin 3) * 256 + 1 * k.val = 256 * (t.val % 391) + k.val; rw [h1]; omega
  | ⟨2, _⟩ => show win0_1.index t (2 : Fin 3) * 1 + 1 * z.val = 0; rw [h2]; have := z.isLt; omega

theorem dbblk_apply (c : Dev nD) (t : Fin cfg0.N) (z0 : Fin 1) (k : Fin 256) (z : Fin 1) :
    (iblk m c 2 t : S1x256x1.Idx → EReal) (ix3 z0 k z)
      = (V m c main_v6 : S1x100096x1.Idx → EReal) (ix3 0 (sampOf t k) 0) := by
  obtain ⟨-, -, -, -, -, -, h0, h1, h2, -⟩ := idx_facts t
  unfold iblk
  rw [View.read_apply]
  show V m c main_v6 _ = V m c main_v6 _
  congr 1
  funext a
  apply Fin.ext
  match a with
  | ⟨0, _⟩ => show win0_2.index t (0 : Fin 3) * 1 + 1 * z0.val = 0; rw [h0]; have := z0.isLt; omega
  | ⟨1, _⟩ => show win0_2.index t (1 : Fin 3) * 256 + 1 * k.val = 256 * (t.val % 391) + k.val; rw [h1]; omega
  | ⟨2, _⟩ => show win0_2.index t (2 : Fin 3) * 1 + 1 * z.val = 0; rw [h2]; have := z.isLt; omega

theorem tablk_apply (c : Dev nD) (t : Fin cfg0.N) (e : Fin 8) (blk : Fin 512) (off : Fin 128) :
    (iblk m c 3 t : S8x512x128.Idx → EReal) (ix3 e blk off)
      = (V m c main_v7 : S128x512x128.Idx → EReal) (ix3 (rowOf t e) blk off) := by
  obtain ⟨-, -, -, -, -, -, -, -, -, h0, h1, h2, -⟩ := idx_facts t
  unfold iblk
  rw [View.read_apply]
  show V m c main_v7 _ = V m c main_v7 _
  congr 1
  funext a
  apply Fin.ext
  match a with
  | ⟨0, _⟩ => show win0_3.index t (0 : Fin 3) * 8 + 1 * e.val = 8 * (t.val / 391) + e.val; rw [h0]; omega
  | ⟨1, _⟩ => show win0_3.index t (1 : Fin 3) * 512 + 1 * blk.val = blk.val; rw [h1]; omega
  | ⟨2, _⟩ => show win0_3.index t (2 : Fin 3) * 128 + 1 * off.val = off.val; rw [h2]; omega

theorem tbblk_apply (c : Dev nD) (t : Fin cfg0.N) (e : Fin 8) (blk : Fin 512) (off : Fin 128) :
    (iblk m c 4 t : S8x512x128.Idx → EReal) (ix3 e blk off)
      = (V m c main_v8 : S128x512x128.Idx → EReal) (ix3 (rowOf t e) blk off) := by
  obtain ⟨-, -, -, -, -, -, -, -, -, -, -, -, h0, h1, h2, -⟩ := idx_facts t
  unfold iblk
  rw [View.read_apply]
  show V m c main_v8 _ = V m c main_v8 _
  congr 1
  funext a
  apply Fin.ext
  match a with
  | ⟨0, _⟩ => show win0_4.index t (0 : Fin 3) * 8 + 1 * e.val = 8 * (t.val / 391) + e.val; rw [h0]; omega
  | ⟨1, _⟩ => show win0_4.index t (1 : Fin 3) * 512 + 1 * blk.val = blk.val; rw [h1]; omega
  | ⟨2, _⟩ => show win0_4.index t (2 : Fin 3) * 128 + 1 * off.val = off.val; rw [h2]; omega

/-! ## The arrays the call finds, named at their literal types -/

/-- The padded, transposed index words. -/
abbrev RG (c : Dev nD) : S128x100096x1.Idx → BitVec 32 := V m c main_v2
/-- The padded first update vector. -/
abbrev DA (c : Dev nD) : S1x100096x1.Idx → EReal := V m c main_v4
/-- The padded second update vector. -/
abbrev DB (c : Dev nD) : S1x100096x1.Idx → EReal := V m c main_v6
/-- The first table, re-laid. -/
abbrev TA (c : Dev nD) : S128x512x128.Idx → EReal := V m c main_v7
/-- The second table, re-laid. -/
abbrev TB (c : Dev nD) : S128x512x128.Idx → EReal := V m c main_v8

end Cert.KernelIdeal.KV

end
-- ==== Proof.KPay.lean ====
/-
  The kernel body's pure values, read at an index over the extended reals.

  One grid point holds 8 table rows and 256 samples.  From the block `x0` of index words (8 × 256 × 1) and a block
  `x1` of updates (1 × 256 × 1) the body forms the block one-hot (8 × 256 × 512: is the word's arithmetic shift by 7 the
  block number?) and the offset one-hot (8 × 256 × 128: are the word's low seven bits the offset?) times the update,
  and contracts the two over the 256 samples on the matrix unit, the row as batch axis.  At table entry (e, blk, off)
  that is the sum over the samples k of the block factor times (the offset factor times the update): the sum of
  `tileTerm`.  The accumulator adds it to what it held; the last point adds the accumulator to the table block.
-/
import proofs.«415038_j3642132267698_1_alg».proof.Proof.Gen.KernelIdeal.Skeleton
import proofs.«415038_j3642132267698_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KV

open Idealize.ShloMosaic Idealize.ShloMosaic.ValueIdx Cert.KernelIdeal Cert.KernelIdeal.Gen Cert.ScatterSpec
open scoped BigOperators

/-! ## The contraction's dimension numbers, coordinate by coordinate

The record contracts axis 1 of both operands, keeps axis 0 as the batch axis and axis 2 of each operand as its free axis:
at table entry `j = (e, blk, off)` and sample `k` the block factor is read at `(e, k, blk)` and the offset factor at
`(e, k, off)`. -/

private theorem lhs_ax0 (j : S8x512x128.Idx) (k : dot_S8x256x512_S8x256x128_S8x512x128_1_1_2_2_0_0.contr.Idx) :
    (dot_S8x256x512_S8x256x128_S8x512x128_1_1_2_2_0_0.lhsIdx j k 0 : ℕ) = j 0 := by
  simp [DotDims.lhsIdx, dot_S8x256x512_S8x256x128_S8x512x128_1_1_2_2_0_0]; rfl

private theorem lhs_ax1 (j : S8x512x128.Idx) (k : dot_S8x256x512_S8x256x128_S8x512x128_1_1_2_2_0_0.contr.Idx) :
    (dot_S8x256x512_S8x256x128_S8x512x128_1_1_2_2_0_0.lhsIdx j k 1 : ℕ) = k ⟨0, by decide⟩ :=
  DotDims.lhsIdx_val_of_single dot_S8x256x512_S8x256x128_S8x512x128_1_1_2_2_0_0 rfl j k

private theorem lhs_ax2 (j : S8x512x128.Idx) (k : dot_S8x256x512_S8x256x128_S8x512x128_1_1_2_2_0_0.contr.Idx) :
    (dot_S8x256x512_S8x256x128_S8x512x128_1_1_2_2_0_0.lhsIdx j k 2 : ℕ) = j 1 := by
  simp [DotDims.lhsIdx, dot_S8x256x512_S8x256x128_S8x512x128_1_1_2_2_0_0]; rfl

private theorem rhs_ax0 (j : S8x512x128.Idx) (k : dot_S8x256x512_S8x256x128_S8x512x128_1_1_2_2_0_0.contr.Idx) :
    (dot_S8x256x512_S8x256x128_S8x512x128_1_1_2_2_0_0.rhsIdx j k 0 : ℕ) = j 0 := by
  simp [DotDims.rhsIdx, dot_S8x256x512_S8x256x128_S8x512x128_1_1_2_2_0_0]; rfl

private theorem rhs_ax1 (j : S8x512x128.Idx) (k : dot_S8x256x512_S8x256x128_S8x512x128_1_1_2_2_0_0.contr.Idx) :
    (dot_S8x256x512_S8x256x128_S8x512x128_1_1_2_2_0_0.rhsIdx j k 1 : ℕ) = k ⟨0, by decide⟩ :=
  DotDims.rhsIdx_val_of_single dot_S8x256x512_S8x256x128_S8x512x128_1_1_2_2_0_0 rfl j k

private theorem rhs_ax2 (j : S8x512x128.Idx) (k : dot_S8x256x512_S8x256x128_S8x512x128_1_1_2_2_0_0.contr.Idx) :
    (dot_S8x256x512_S8x256x128_S8x512x128_1_1_2_2_0_0.rhsIdx j k 2 : ℕ) = j 2 := by
  simp [DotDims.rhsIdx, dot_S8x256x512_S8x256x128_S8x512x128_1_1_2_2_0_0]; rfl

/-- The samples' axis of the contraction as `Fin 256`. -/
private abbrev smp : dot_S8x256x512_S8x256x128_S8x512x128_1_1_2_2_0_0.contr.Idx ≃ Fin 256 :=
  contrEquiv1 dot_S8x256x512_S8x256x128_S8x512x128_1_1_2_2_0_0 256 rfl rfl

/-- The left operand's index at entry (e, blk, off) and sample k is (e, k, blk). -/
private theorem lhs_at (e : Fin 8) (blk : Fin 512) (off : Fin 128) (k : Fin 256) :
    dot_S8x256x512_S8x256x128_S8x512x128_1_1_2_2_0_0.lhsIdx (ix3 e blk off) (smp.symm k) = ix3 e k blk :=
  funext fun a => Fin.ext <| match a with
    | ⟨0, _⟩ => lhs_ax0 _ _
    | ⟨1, _⟩ => (lhs_ax1 _ _).trans (contrEquiv1_symm_val _ 256 rfl rfl k)
    | ⟨2, _⟩ => lhs_ax2 _ _

/-- The right operand's index at entry (e, blk, off) and sample k is (e, k, off). -/
private theorem rhs_at (e : Fin 8) (blk : Fin 512) (off : Fin 128) (k : Fin 256) :
    dot_S8x256x512_S8x256x128_S8x512x128_1_1_2_2_0_0.rhsIdx (ix3 e blk off) (smp.symm k) = ix3 e k off :=
  funext fun a => Fin.ext <| match a with
    | ⟨0, _⟩ => rhs_ax0 _ _
    | ⟨1, _⟩ => (rhs_ax1 _ _).trans (contrEquiv1_symm_val _ 256 rfl rfl k)
    | ⟨2, _⟩ => rhs_ax2 _ _

/-- The matrix unit's product into a zero accumulator, at table entry (e, blk, off): the sum over the 256 samples of
    the left block at (e, k, blk) times the right block at (e, k, off). -/
private theorem mm_apply (L : FVec Ideal S8x256x512 .bf16) (R : FVec Ideal S8x256x128 .bf16)
    (e : Fin 8) (blk : Fin 512) (off : Fin 128) :
    matmul dot_S8x256x512_S8x256x128_S8x512x128_1_1_2_2_0_0 none L R (constant (F := Ideal) S8x512x128 .f32 0x00000000#32)
        (ix3 e blk off)
      = ∑ k : Fin 256, L (ix3 e k blk) * R (ix3 e k off) := by
  simp only [matmul]
  rw [Ideal.matmul_constant_zero_apply, ← Equiv.sum_comp smp.symm]
  exact Finset.sum_congr rfl fun k _ => by rw [lhs_at, rhs_at]

/-! ## The pointwise word operations and the broadcasts at an index -/

private theorem cmpi_apply {s : Shape} {w : Nat} (p : CmpIPredicate) (a b : IVec s w) (i : s.Idx) :
    cmpi p a b i = IntOp.cmpi p (a i) (b i) := rfl
private theorem shrsi_apply {s : Shape} {w : Nat} (a b : IVec s w) (i : s.Idx) :
    shrsi a b i = IntOp.shrsi .vector (a i) (b i) := rfl
private theorem andi_apply {s : Shape} {w : Nat} (a b : IVec s w) (i : s.Idx) :
    andi a b i = IntOp.andi (a i) (b i) := rfl

/-- A column block (8 × 256 × 1) spread along 512 lanes reads its column. -/
private theorem bc512_apply {α : Type} (v : S8x256x1.Idx → α) (e : Fin 8) (k : Fin 256) (b : Fin 512) :
    broadcastTo S8x256x512 v broadcasts_S8x256x1_S8x256x512 (ix3 e k b) = v (ix3 e k 0) :=
  broadcastTo_apply v _ (ix3 e k b) (ix3 e k 0) (fun a => match a with | ⟨0, _⟩ => rfl | ⟨1, _⟩ => rfl | ⟨2, _⟩ => rfl)

/-- A column block (8 × 256 × 1) spread along 128 lanes reads its column. -/
private theorem bc128_apply {α : Type} (v : S8x256x1.Idx → α) (e : Fin 8) (k : Fin 256) (o : Fin 128) :
    broadcastTo S8x256x128 v broadcasts_S8x256x1_S8x256x128 (ix3 e k o) = v (ix3 e k 0) :=
  broadcastTo_apply v _ (ix3 e k o) (ix3 e k 0) (fun a => match a with | ⟨0, _⟩ => rfl | ⟨1, _⟩ => rfl | ⟨2, _⟩ => rfl)

/-- One row of samples (1 × 256 × 1) spread along the 8 table rows reads that row. -/
private theorem bc8_apply {α : Type} (v : S1x256x1.Idx → α) (e : Fin 8) (k : Fin 256) :
    broadcastTo S8x256x1 v broadcasts_S1x256x1_S8x256x1 (ix3 e k 0) = v (ix3 0 k 0) :=
  broadcastTo_apply v _ (ix3 e k 0) (ix3 0 k 0) (fun a => match a with | ⟨0, _⟩ => rfl | ⟨1, _⟩ => rfl | ⟨2, _⟩ => rfl)

/-! ## The three factors at an index -/

/-- The block one-hot at (e, k, b): is the arithmetic shift by 7 of row e's index word for sample k the block b? -/
private theorem pay8_apply (x0 : Vec Ideal S8x256x1 .i32) (e : Fin 8) (k : Fin 256) (b : Fin 512) :
    k0_pay8 (F := Ideal) x0 (ix3 e k b) = hot (IntOp.shrsi .vector (x0 (ix3 e k 0)) 7#32) (BitVec.ofNat 32 b.val) := by
  unfold k0_pay8 k0_pay7
  rw [truncf_apply, sitofp_apply, extui_apply, cmpi_apply, bc512_apply, iota_single_apply, shrsi_apply, shapeCast_self]
  rfl

/-- The offset one-hot at (e, k, o): are the low seven bits of row e's index word for sample k the offset o? -/
private theorem pay9_apply (x0 : Vec Ideal S8x256x1 .i32) (e : Fin 8) (k : Fin 256) (o : Fin 128) :
    k0_pay9 (F := Ideal) x0 (ix3 e k o) = hot (IntOp.andi (x0 (ix3 e k 0)) 127#32) (BitVec.ofNat 32 o.val) := by
  unfold k0_pay9 k0_pay7
  rw [truncf_apply, sitofp_apply, extui_apply, cmpi_apply, bc128_apply, iota_single_apply, andi_apply, shapeCast_self]
  rfl

/-- The update block spread along the rows and the offsets reads the sample's update everywhere. -/
private theorem upd_apply (x : Vec Ideal S1x256x1 .f32) (e : Fin 8) (k : Fin 256) (o : Fin 128) :
    broadcastTo S8x256x128
        (broadcastTo S8x256x1
          (shapeCast S1x256x1
            (truncf .bf16 (shapeCast S1x256x1 x shapeCasts_S1x256x1_S1x256x1 : FVec Ideal S1x256x1 .f32) bitsLt_bf16_f32 : FVec Ideal S1x256x1 .bf16)
            shapeCasts_S1x256x1_S1x256x1)
          broadcasts_S1x256x1_S8x256x1)
        broadcasts_S8x256x1_S8x256x128 (ix3 e k o)
      = x (ix3 0 k 0) := by
  rw [bc128_apply, bc8_apply, shapeCast_self, truncf_apply, shapeCast_self]

/-! ## The payloads -/

/-- The zero block the first point of a row tile stores into the first accumulator. -/
theorem pay5_apply (j : S8x512x128.Idx) : k0_pay5 (F := Ideal) j = 0 := by
  unfold k0_pay5
  rw [shapeCast_self]
  exact Ideal.ofBits_zero_f32

/-- The zero block the first point of a row tile stores into the second accumulator. -/
theorem pay6_apply (j : S8x512x128.Idx) : k0_pay6 (F := Ideal) j = 0 := by
  unfold k0_pay6
  rw [shapeCast_self]
  exact Ideal.ofBits_zero_f32

/-- The first accumulator after a point: what it held plus, at (e, blk, off), the 256 samples' products. -/
theorem pay11_apply (x0 : Vec Ideal S8x256x1 .i32) (x1 : Vec Ideal S1x256x1 .f32) (acc : Vec Ideal S8x512x128 .f32)
    (e : Fin 8) (blk : Fin 512) (off : Fin 128) :
    k0_pay1 (k0_pay11 (F := Ideal) x0 x1 acc) (ix3 e blk off)
      = acc (ix3 e blk off) + ∑ k : Fin 256, tileTerm (x0 (ix3 e k 0)) (x1 (ix3 0 k 0)) blk off := by
  unfold k0_pay1 k0_pay11
  dsimp only
  rw [shapeCast_self, addf_apply, mm_apply]
  refine congrArg (acc (ix3 e blk off) + ·) (Finset.sum_congr rfl fun k _ => ?_)
  rw [pay8_apply, mulf_apply, pay9_apply, upd_apply]
  rfl

/-- The second accumulator after a point, the same with the second update block. -/
theorem pay10_apply (x0 : Vec Ideal S8x256x1 .i32) (x2 : Vec Ideal S1x256x1 .f32) (acc : Vec Ideal S8x512x128 .f32)
    (e : Fin 8) (blk : Fin 512) (off : Fin 128) :
    k0_pay2 (k0_pay10 (F := Ideal) x0 x2) acc (ix3 e blk off)
      = acc (ix3 e blk off) + ∑ k : Fin 256, tileTerm (x0 (ix3 e k 0)) (x2 (ix3 0 k 0)) blk off := by
  unfold k0_pay2 k0_pay10
  dsimp only
  rw [shapeCast_self, addf_apply, mm_apply]
  refine congrArg (acc (ix3 e blk off) + ·) (Finset.sum_congr rfl fun k _ => ?_)
  rw [pay8_apply, mulf_apply, pay9_apply, upd_apply]
  rfl

/-- The last point's first output block: the table block plus the accumulator. -/
theorem pay3_apply (x3 s : Vec Ideal S8x512x128 .f32) (j : S8x512x128.Idx) :
    k0_pay3 (F := Ideal) x3 s j = x3 j + s j := by
  unfold k0_pay3
  rw [shapeCast_self]
  rfl

/-- The last point's second output block. -/
theorem pay4_apply (x4 s : Vec Ideal S8x512x128 .f32) (j : S8x512x128.Idx) :
    k0_pay4 (F := Ideal) x4 s j = x4 j + s j := by
  unfold k0_pay4
  rw [shapeCast_self]
  rfl

end Cert.KernelIdeal.KV

end
-- ==== Proof.KPieces.lean ====
/-
  What each control case of the kernel body leaves in the two accumulators and, at the last point of a row tile, in the
  two output blocks, as pure values of the blocks it loads.

  A grid point is in one of three cases.  The first point of a row tile stores a zero block into each accumulator and
  then adds the point's products to it; a middle point adds the point's products to what the accumulator held; the last
  point does the same and then stores table block + accumulator into each output block.
-/
import proofs.«415038_j3642132267698_1_alg».proof.Proof.Gen.KernelIdeal.Frame
import Idealize.ShloMosaic.Lib.Pipeline.Value
import Idealize.ShloMosaic.Lib.Tactic

set_option maxRecDepth 16384

noncomputable section

namespace Cert.KernelIdeal.KV

open Idealize.ShloMosaic Idealize.ShloMosaic.TcCoe Idealize.SL.Sem Cert.KernelIdeal Cert.KernelIdeal.Gen

variable {F : FTy → Type} [FloatOps F]

theorem hz3 : (![0, 0, 0] : Fin 3 → Nat) = fun _ => 0 := funext fun a => by fin_cases a <;> rfl

/-- First point of a row tile, first accumulator: the zero block plus the point's products. -/
theorem sout_A_0 (c : Dev nD) (i : grid0.Coords) (arg2 : Memref sig .tc .vmem S8x256x1 .i32) (harg2 : arg2.IsWhole) (arg3 : Memref sig .tc .vmem S1x256x1 .f32) (harg3 : arg3.IsWhole) (arg4 : Memref sig .tc .vmem S1x256x1 .f32) (harg4 : arg4.IsWhole) (arg5 : Memref sig .tc .vmem S8x512x128 .f32) (harg5 : arg5.IsWhole) (arg6 : Memref sig .tc .vmem S8x512x128 .f32) (harg6 : arg6.IsWhole) (arg7 : Memref sig .tc .vmem S8x512x128 .f32) (harg7 : arg7.IsWhole) (arg8 : Memref sig .tc .vmem S8x512x128 .f32) (harg8 : arg8.IsWhole) (arg9 : Memref sig .tc .vmem S8x512x128 .f32) (harg9 : arg9.IsWhole) (arg10 : Memref sig .tc .vmem S8x512x128 .f32) (harg10 : arg10.IsWhole) (hc0 : cond0_0 i) (hc1 : ¬cond0_1 i)
    (x0 : Vec F S8x256x1 .i32) (x1 : Vec F S1x256x1 .f32) (x2 : Vec F S1x256x1 .f32) (x3 : Vec F S8x512x128 .f32) (x4 : Vec F S8x512x128 .f32) :
    sout0_A_0 c i arg2 harg2 arg3 harg3 arg4 harg4 arg5 harg5 arg6 harg6 arg7 harg7 arg8 harg8 arg9 harg9 arg10 harg10 hc0 hc1 x0 x1 x2 x3 x4 = k0_pay1 (k0_pay11 x0 x1 k0_pay5) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S8x512x128) hz3]
  simp only [View.readAt_eq_ld, harg2.read_unread, harg3.read_unread,
    View.ld_unit_zero (S := S8x256x1) hz3, View.ld_unit_zero (S := S1x256x1) hz3,
    View.readCov_unit_zero (S := S8x512x128) _ hz3]

/-- First point of a row tile, second accumulator. -/
theorem sout_A_1 (c : Dev nD) (i : grid0.Coords) (arg2 : Memref sig .tc .vmem S8x256x1 .i32) (harg2 : arg2.IsWhole) (arg3 : Memref sig .tc .vmem S1x256x1 .f32) (harg3 : arg3.IsWhole) (arg4 : Memref sig .tc .vmem S1x256x1 .f32) (harg4 : arg4.IsWhole) (arg5 : Memref sig .tc .vmem S8x512x128 .f32) (harg5 : arg5.IsWhole) (arg6 : Memref sig .tc .vmem S8x512x128 .f32) (harg6 : arg6.IsWhole) (arg7 : Memref sig .tc .vmem S8x512x128 .f32) (harg7 : arg7.IsWhole) (arg8 : Memref sig .tc .vmem S8x512x128 .f32) (harg8 : arg8.IsWhole) (arg9 : Memref sig .tc .vmem S8x512x128 .f32) (harg9 : arg9.IsWhole) (arg10 : Memref sig .tc .vmem S8x512x128 .f32) (harg10 : arg10.IsWhole) (hc0 : cond0_0 i) (hc1 : ¬cond0_1 i)
    (x0 : Vec F S8x256x1 .i32) (x1 : Vec F S1x256x1 .f32) (x2 : Vec F S1x256x1 .f32) (x3 : Vec F S8x512x128 .f32) (x4 : Vec F S8x512x128 .f32) :
    sout0_A_1 c i arg2 harg2 arg3 harg3 arg4 harg4 arg5 harg5 arg6 harg6 arg7 harg7 arg8 harg8 arg9 harg9 arg10 harg10 hc0 hc1 x0 x1 x2 x3 x4 = k0_pay2 (k0_pay10 x0 x2) k0_pay6 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S8x512x128) hz3]
  simp only [View.readAt_eq_ld, harg2.read_unread, harg4.read_unread,
    View.ld_unit_zero (S := S8x256x1) hz3, View.ld_unit_zero (S := S1x256x1) hz3,
    View.readCov_unit_zero (S := S8x512x128) _ hz3]

/-- A middle point, first accumulator: what it held plus the point's products. -/
theorem sout_B_0 (c : Dev nD) (i : grid0.Coords) (arg2 : Memref sig .tc .vmem S8x256x1 .i32) (harg2 : arg2.IsWhole) (arg3 : Memref sig .tc .vmem S1x256x1 .f32) (harg3 : arg3.IsWhole) (arg4 : Memref sig .tc .vmem S1x256x1 .f32) (harg4 : arg4.IsWhole) (arg5 : Memref sig .tc .vmem S8x512x128 .f32) (harg5 : arg5.IsWhole) (arg6 : Memref sig .tc .vmem S8x512x128 .f32) (harg6 : arg6.IsWhole) (arg7 : Memref sig .tc .vmem S8x512x128 .f32) (harg7 : arg7.IsWhole) (arg8 : Memref sig .tc .vmem S8x512x128 .f32) (harg8 : arg8.IsWhole) (arg9 : Memref sig .tc .vmem S8x512x128 .f32) (harg9 : arg9.IsWhole) (arg10 : Memref sig .tc .vmem S8x512x128 .f32) (harg10 : arg10.IsWhole) (hc0 : ¬cond0_0 i) (hc1 : ¬cond0_1 i)
    (x0 : Vec F S8x256x1 .i32) (x1 : Vec F S1x256x1 .f32) (x2 : Vec F S1x256x1 .f32) (x3 : Vec F S8x512x128 .f32) (x4 : Vec F S8x512x128 .f32) (xs0 : Vec F S8x512x128 .f32) (xs1 : Vec F S8x512x128 .f32) :
    sout0_B_0 c i arg2 harg2 arg3 harg3 arg4 harg4 arg5 harg5 arg6 harg6 arg7 harg7 arg8 harg8 arg9 harg9 arg10 harg10 hc0 hc1 x0 x1 x2 x3 x4 xs0 xs1 = k0_pay1 (k0_pay11 x0 x1 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz3]
  simp only [View.readAt_eq_ld, harg2.read_unread, harg3.read_unread, harg9.read_unread,
    View.ld_unit_zero (S := S8x256x1) hz3, View.ld_unit_zero (S := S1x256x1) hz3,
    View.ld_unit_zero (S := S8x512x128) hz3]

/-- A middle point, second accumulator. -/
theorem sout_B_1 (c : Dev nD) (i : grid0.Coords) (arg2 : Memref sig .tc .vmem S8x256x1 .i32) (harg2 : arg2.IsWhole) (arg3 : Memref sig .tc .vmem S1x256x1 .f32) (harg3 : arg3.IsWhole) (arg4 : Memref sig .tc .vmem S1x256x1 .f32) (harg4 : arg4.IsWhole) (arg5 : Memref sig .tc .vmem S8x512x128 .f32) (harg5 : arg5.IsWhole) (arg6 : Memref sig .tc .vmem S8x512x128 .f32) (harg6 : arg6.IsWhole) (arg7 : Memref sig .tc .vmem S8x512x128 .f32) (harg7 : arg7.IsWhole) (arg8 : Memref sig .tc .vmem S8x512x128 .f32) (harg8 : arg8.IsWhole) (arg9 : Memref sig .tc .vmem S8x512x128 .f32) (harg9 : arg9.IsWhole) (arg10 : Memref sig .tc .vmem S8x512x128 .f32) (harg10 : arg10.IsWhole) (hc0 : ¬cond0_0 i) (hc1 : ¬cond0_1 i)
    (x0 : Vec F S8x256x1 .i32) (x1 : Vec F S1x256x1 .f32) (x2 : Vec F S1x256x1 .f32) (x3 : Vec F S8x512x128 .f32) (x4 : Vec F S8x512x128 .f32) (xs0 : Vec F S8x512x128 .f32) (xs1 : Vec F S8x512x128 .f32) :
    sout0_B_1 c i arg2 harg2 arg3 harg3 arg4 harg4 arg5 harg5 arg6 harg6 arg7 harg7 arg8 harg8 arg9 harg9 arg10 harg10 hc0 hc1 x0 x1 x2 x3 x4 xs0 xs1 = k0_pay2 (k0_pay10 x0 x2) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz3]
  simp only [View.readAt_eq_ld, harg2.read_unread, harg4.read_unread, harg10.read_unread,
    View.ld_unit_zero (S := S8x256x1) hz3, View.ld_unit_zero (S := S1x256x1) hz3, View.ld_unit_zero (S := S8x512x128) hz3]

/-- The last point of a row tile, first accumulator. -/
theorem sout_C_0 (c : Dev nD) (i : grid0.Coords) (arg2 : Memref sig .tc .vmem S8x256x1 .i32) (harg2 : arg2.IsWhole) (arg3 : Memref sig .tc .vmem S1x256x1 .f32) (harg3 : arg3.IsWhole) (arg4 : Memref sig .tc .vmem S1x256x1 .f32) (harg4 : arg4.IsWhole) (arg5 : Memref sig .tc .vmem S8x512x128 .f32) (harg5 : arg5.IsWhole) (arg6 : Memref sig .tc .vmem S8x512x128 .f32) (harg6 : arg6.IsWhole) (arg7 : Memref sig .tc .vmem S8x512x128 .f32) (harg7 : arg7.IsWhole) (arg8 : Memref sig .tc .vmem S8x512x128 .f32) (harg8 : arg8.IsWhole) (arg9 : Memref sig .tc .vmem S8x512x128 .f32) (harg9 : arg9.IsWhole) (arg10 : Memref sig .tc .vmem S8x512x128 .f32) (harg10 : arg10.IsWhole) (hc0 : ¬cond0_0 i) (hc1 : cond0_1 i)
    (x0 : Vec F S8x256x1 .i32) (x1 : Vec F S1x256x1 .f32) (x2 : Vec F S1x256x1 .f32) (x3 : Vec F S8x512x128 .f32) (x4 : Vec F S8x512x128 .f32) (xs0 : Vec F S8x512x128 .f32) (xs1 : Vec F S8x512x128 .f32) :
    sout0_C_0 c i arg2 harg2 arg3 harg3 arg4 harg4 arg5 harg5 arg6 harg6 arg7 harg7 arg8 harg8 arg9 harg9 arg10 harg10 hc0 hc1 x0 x1 x2 x3 x4 xs0 xs1 = k0_pay1 (k0_pay11 x0 x1 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz3]
  simp only [View.readAt_eq_ld, harg2.read_unread, harg3.read_unread, harg9.read_unread,
    View.ld_unit_zero (S := S8x256x1) hz3, View.ld_unit_zero (S := S1x256x1) hz3, View.ld_unit_zero (S := S8x512x128) hz3]

/-- The last point of a row tile, second accumulator. -/
theorem sout_C_1 (c : Dev nD) (i : grid0.Coords) (arg2 : Memref sig .tc .vmem S8x256x1 .i32) (harg2 : arg2.IsWhole) (arg3 : Memref sig .tc .vmem S1x256x1 .f32) (harg3 : arg3.IsWhole) (arg4 : Memref sig .tc .vmem S1x256x1 .f32) (harg4 : arg4.IsWhole) (arg5 : Memref sig .tc .vmem S8x512x128 .f32) (harg5 : arg5.IsWhole) (arg6 : Memref sig .tc .vmem S8x512x128 .f32) (harg6 : arg6.IsWhole) (arg7 : Memref sig .tc .vmem S8x512x128 .f32) (harg7 : arg7.IsWhole) (arg8 : Memref sig .tc .vmem S8x512x128 .f32) (harg8 : arg8.IsWhole) (arg9 : Memref sig .tc .vmem S8x512x128 .f32) (harg9 : arg9.IsWhole) (arg10 : Memref sig .tc .vmem S8x512x128 .f32) (harg10 : arg10.IsWhole) (hc0 : ¬cond0_0 i) (hc1 : cond0_1 i)
    (x0 : Vec F S8x256x1 .i32) (x1 : Vec F S1x256x1 .f32) (x2 : Vec F S1x256x1 .f32) (x3 : Vec F S8x512x128 .f32) (x4 : Vec F S8x512x128 .f32) (xs0 : Vec F S8x512x128 .f32) (xs1 : Vec F S8x512x128 .f32) :
    sout0_C_1 c i arg2 harg2 arg3 harg3 arg4 harg4 arg5 harg5 arg6 harg6 arg7 harg7 arg8 harg8 arg9 harg9 arg10 harg10 hc0 hc1 x0 x1 x2 x3 x4 xs0 xs1 = k0_pay2 (k0_pay10 x0 x2) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz3]
  simp only [View.readAt_eq_ld, harg2.read_unread, harg4.read_unread, harg10.read_unread,
    View.ld_unit_zero (S := S8x256x1) hz3, View.ld_unit_zero (S := S1x256x1) hz3, View.ld_unit_zero (S := S8x512x128) hz3]

/-- The last point of a row tile, first output block: the table block plus the finished accumulator. -/
theorem out_C_5 (c : Dev nD) (i : grid0.Coords) (arg2 : Memref sig .tc .vmem S8x256x1 .i32) (harg2 : arg2.IsWhole) (arg3 : Memref sig .tc .vmem S1x256x1 .f32) (harg3 : arg3.IsWhole) (arg4 : Memref sig .tc .vmem S1x256x1 .f32) (harg4 : arg4.IsWhole) (arg5 : Memref sig .tc .vmem S8x512x128 .f32) (harg5 : arg5.IsWhole) (arg6 : Memref sig .tc .vmem S8x512x128 .f32) (harg6 : arg6.IsWhole) (arg7 : Memref sig .tc .vmem S8x512x128 .f32) (harg7 : arg7.IsWhole) (arg8 : Memref sig .tc .vmem S8x512x128 .f32) (harg8 : arg8.IsWhole) (arg9 : Memref sig .tc .vmem S8x512x128 .f32) (harg9 : arg9.IsWhole) (arg10 : Memref sig .tc .vmem S8x512x128 .f32) (harg10 : arg10.IsWhole) (hc0 : ¬cond0_0 i) (hc1 : cond0_1 i)
    (x0 : Vec F S8x256x1 .i32) (x1 : Vec F S1x256x1 .f32) (x2 : Vec F S1x256x1 .f32) (x3 : Vec F S8x512x128 .f32) (x4 : Vec F S8x512x128 .f32) (xs0 : Vec F S8x512x128 .f32) (xs1 : Vec F S8x512x128 .f32) :
    out0_C_5 c i arg2 harg2 arg3 harg3 arg4 harg4 arg5 harg5 arg6 harg6 arg7 harg7 arg8 harg8 arg9 harg9 arg10 harg10 hc0 hc1 x0 x1 x2 x3 x4 xs0 xs1 = k0_pay3 x3 (k0_pay1 (k0_pay11 x0 x1 xs0)) := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz3]
  simp only [View.readAt_eq_ld, harg2.read_unread, harg3.read_unread, harg5.read_unread, harg9.read_unread,
    View.ld_unit_zero (S := S8x256x1) hz3, View.ld_unit_zero (S := S1x256x1) hz3, View.ld_unit_zero (S := S8x512x128) hz3,
    View.readCov_unit_zero (S := S8x512x128) _ hz3]

/-- The last point of a row tile, second output block. -/
theorem out_C_6 (c : Dev nD) (i : grid0.Coords) (arg2 : Memref sig .tc .vmem S8x256x1 .i32) (harg2 : arg2.IsWhole) (arg3 : Memref sig .tc .vmem S1x256x1 .f32) (harg3 : arg3.IsWhole) (arg4 : Memref sig .tc .vmem S1x256x1 .f32) (harg4 : arg4.IsWhole) (arg5 : Memref sig .tc .vmem S8x512x128 .f32) (harg5 : arg5.IsWhole) (arg6 : Memref sig .tc .vmem S8x512x128 .f32) (harg6 : arg6.IsWhole) (arg7 : Memref sig .tc .vmem S8x512x128 .f32) (harg7 : arg7.IsWhole) (arg8 : Memref sig .tc .vmem S8x512x128 .f32) (harg8 : arg8.IsWhole) (arg9 : Memref sig .tc .vmem S8x512x128 .f32) (harg9 : arg9.IsWhole) (arg10 : Memref sig .tc .vmem S8x512x128 .f32) (harg10 : arg10.IsWhole) (hc0 : ¬cond0_0 i) (hc1 : cond0_1 i)
    (x0 : Vec F S8x256x1 .i32) (x1 : Vec F S1x256x1 .f32) (x2 : Vec F S1x256x1 .f32) (x3 : Vec F S8x512x128 .f32) (x4 : Vec F S8x512x128 .f32) (xs0 : Vec F S8x512x128 .f32) (xs1 : Vec F S8x512x128 .f32) :
    out0_C_6 c i arg2 harg2 arg3 harg3 arg4 harg4 arg5 harg5 arg6 harg6 arg7 harg7 arg8 harg8 arg9 harg9 arg10 harg10 hc0 hc1 x0 x1 x2 x3 x4 xs0 xs1 = k0_pay4 x4 (k0_pay2 (k0_pay10 x0 x2) xs1) := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz3]
  simp only [View.readAt_eq_ld, harg2.read_unread, harg4.read_unread, harg6.read_unread, harg10.read_unread,
    View.ld_unit_zero (S := S8x256x1) hz3, View.ld_unit_zero (S := S1x256x1) hz3, View.ld_unit_zero (S := S8x512x128) hz3,
    View.readCov_unit_zero (S := S8x512x128) _ hz3]

end Cert.KernelIdeal.KV

end
-- ==== Proof.KHost.lean ====
/-
  The arrays the pallas_call reads and the lines of @main after it, read at an index over the extended reals.

  Before the call @main transposes the index words to (row, sample), pads the sample axis from 100000 to 100096
  with the word 0, and pads the two update vectors likewise with 0.0; the two tables are re-laid from 128 × 65536 to
  128 × 512 × 128, position r of a row becoming (r / 128, r mod 128).  After the call the two results are laid back
  to 128 × 65536 and stacked along a new leading axis.
-/
import proofs.«415038_j3642132267698_1_alg».proof.Proof.Gen.KernelIdeal.Frame.Runs
import Idealize.ShloMosaic.Lib.ValueIdx
import Idealize.ShloMosaic.Lib.ValueLayout
import Idealize.ShloMosaic.Lib.Pipeline.Value
import Idealize.ShloMosaic.Lib.KernelVsHost
import Idealize.ShloMosaic.Lib.StableHlo.Run

noncomputable section

namespace Cert.KernelIdeal.KV

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-! ## Layout operations at an index, over literal coordinate types -/

section Layout
variable {α : Type}

/-- An `[a, b]` array cast to `[a, b, 1]` reads, at `(i, j, u)`, the operand at `(i, j)`. -/
private theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a]` array cast to `[1, a, 1]` reads, at `(u, i, w)`, the operand at `i`. -/
private theorem shapeCast_a_1a1_apply {a : ℕ} (x : (⟨1, ![a]⟩ : Shape).Idx → α)
    (h : (⟨1, ![a]⟩ : Shape).ShapeCasts ⟨3, ![1, a, 1]⟩) (u : Fin 1) (i : Fin a) (w : Fin 1) :
    shapeCast ⟨3, ![1, a, 1]⟩ x h (ix3 u i w) = x (ix1 i) :=
  shapeCast_apply x h _ _ (by
    have hu : u.val = 0 := by omega
    have hw : w.val = 0 := by omega
    rw [Shape.rowMajor_val_one, Shape.rowMajor_val_three]
    show i.val = (u.val * a + i.val) * 1 + w.val
    rw [hu, hw, Nat.zero_mul, Nat.zero_add, Nat.mul_one, Nat.add_zero])

/-- A matrix padded on the high side of its columns reads the operand at a column below the operand's width … -/
private theorem pad2_axis1_inside {a b b' p : ℕ} (x : (⟨2, ![a, b]⟩ : Shape).Idx → α) {u : Shape} (v : u.Idx → α)
    (h : (⟨2, ![a, b]⟩ : Shape).Pads (![0, 0] : Fin 2 → Nat) ![0, p] ![0, 0] ⟨2, ![a, b']⟩) (hu : 0 < u.numel)
    (i : Fin a) (j : Fin b') (hj : j.val < b) :
    pad ⟨2, ![a, b']⟩ ![0, 0] ![0, p] ![0, 0] x v h hu (ix2 i j) = x (ix2 i ⟨j.val, hj⟩) :=
  pad_apply_of_inside _ _ _ x v h hu _ _ (fun ax => by
    match ax with
    | ⟨0, _⟩ => show i.val = 0 + i.val * (0 + 1); omega
    | ⟨1, _⟩ => show j.val = 0 + j.val * (0 + 1); omega)

/-- … and the padding value at a column past it. -/
private theorem pad2_axis1_outside {a b b' p : ℕ} (x : (⟨2, ![a, b]⟩ : Shape).Idx → α) {u : Shape} (v : u.Idx → α)
    (h : (⟨2, ![a, b]⟩ : Shape).Pads (![0, 0] : Fin 2 → Nat) ![0, p] ![0, 0] ⟨2, ![a, b']⟩) (hu : 0 < u.numel)
    (i : Fin a) (j : Fin b') (hj : ¬ j.val < b) :
    pad ⟨2, ![a, b']⟩ ![0, 0] ![0, p] ![0, 0] x v h hu (ix2 i j) = v (Shape.Idx.first hu) :=
  pad_apply_of_not_inside _ _ _ x v h hu _ (1 : Fin 2) (by
    show ¬(0 ≤ j.val ∧ (j.val - 0) % (0 + 1) = 0 ∧ (j.val - 0) / (0 + 1) < b)
    omega)

/-- A `[1, b, 1]` array padded on the high side of its middle axis reads the operand below the operand's length … -/
private theorem pad3_axis1_inside {b b' p : ℕ} (x : (⟨3, ![1, b, 1]⟩ : Shape).Idx → α) {u : Shape} (v : u.Idx → α)
    (h : (⟨3, ![1, b, 1]⟩ : Shape).Pads (![0, 0, 0] : Fin 3 → Nat) ![0, p, 0] ![0, 0, 0] ⟨3, ![1, b', 1]⟩) (hu : 0 < u.numel)
    (i : Fin 1) (j : Fin b') (w : Fin 1) (hj : j.val < b) :
    pad ⟨3, ![1, b', 1]⟩ ![0, 0, 0] ![0, p, 0] ![0, 0, 0] x v h hu (ix3 i j w) = x (ix3 i ⟨j.val, hj⟩ w) :=
  pad_apply_of_inside _ _ _ x v h hu _ _ (fun ax => by
    match ax with
    | ⟨0, _⟩ => show i.val = 0 + i.val * (0 + 1); omega
    | ⟨1, _⟩ => show j.val = 0 + j.val * (0 + 1); omega
    | ⟨2, _⟩ => show w.val = 0 + w.val * (0 + 1); omega)

/-- … and the padding value past it. -/
private theorem pad3_axis1_outside {b b' p : ℕ} (x : (⟨3, ![1, b, 1]⟩ : Shape).Idx → α) {u : Shape} (v : u.Idx → α)
    (h : (⟨3, ![1, b, 1]⟩ : Shape).Pads (![0, 0, 0] : Fin 3 → Nat) ![0, p, 0] ![0, 0, 0] ⟨3, ![1, b', 1]⟩) (hu : 0 < u.numel)
    (i : Fin 1) (j : Fin b') (w : Fin 1) (hj : ¬ j.val < b) :
    pad ⟨3, ![1, b', 1]⟩ ![0, 0, 0] ![0, p, 0] ![0, 0, 0] x v h hu (ix3 i j w) = v (Shape.Idx.first hu) :=
  pad_apply_of_not_inside _ _ _ x v h hu _ (1 : Fin 3) (by
    show ¬(0 ≤ j.val ∧ (j.val - 0) % (0 + 1) = 0 ∧ (j.val - 0) / (0 + 1) < b)
    omega)

end Layout

/-- Table position `blk · 128 + off` of a row. -/
def pos (blk : Fin 512) (off : Fin 128) : Fin 65536 :=
  ⟨blk.val * 128 + off.val, by have := blk.isLt; have := off.isLt; omega⟩

/-! ## The arrays the call finds, as terms of @main's argument arrays -/

/-- The index words: transposed, padded along the sample axis with the word 0, given a trailing unit axis. -/
private theorem v2_eq (c : Dev nD) :
    (V m c main_v2 : S128x100096x1.Idx → BitVec 32)
      = shapeCast S128x100096x1
          (pad S128x100096 ![0, 0] ![0, 96] ![0, 0]
            (transpose S128x100000 [1, 0] (m ((c : Thread nD τ).loc main_arg2) : S100000x128.Idx → BitVec 32)
              transposes_S100000x128_S128x100000_1_0)
            (constantI S_ 32 0#32) pads_S128x100000_S128x100096_000_0960 h_S_)
          shapeCasts_S128x100096_S128x100096x1 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- The first update vector: given a leading and a trailing unit axis, padded along the sample axis with the
    integer 0 converted to a float. -/
private theorem v4_eq (c : Dev nD) :
    (V m c main_v4 : S1x100096x1.Idx → EReal)
      = pad S1x100096x1 ![0, 0, 0] ![0, 96, 0] ![0, 0, 0]
          (shapeCast S1x100000x1 (m ((c : Thread nD τ).loc main_arg3) : S100000.Idx → EReal) shapeCasts_S100000_S1x100000x1)
          (sitofp (F := Ideal) .f32 (constantI S_ 32 0#32)) pads_S1x100000x1_S1x100096x1_000_0960_000 h_S_ := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- The second update vector likewise. -/
private theorem v6_eq (c : Dev nD) :
    (V m c main_v6 : S1x100096x1.Idx → EReal)
      = pad S1x100096x1 ![0, 0, 0] ![0, 96, 0] ![0, 0, 0]
          (shapeCast S1x100000x1 (m ((c : Thread nD τ).loc main_arg4) : S100000.Idx → EReal) shapeCasts_S100000_S1x100000x1)
          (sitofp (F := Ideal) .f32 (constantI S_ 32 0#32)) pads_S1x100000x1_S1x100096x1_000_0960_000 h_S_ := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- The first table re-laid. -/
private theorem v7_eq (c : Dev nD) :
    (V m c main_v7 : S128x512x128.Idx → EReal)
      = shapeCast S128x512x128 (m ((c : Thread nD τ).loc main_arg0) : S128x65536.Idx → EReal) shapeCasts_S128x65536_S128x512x128 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- The second table re-laid. -/
private theorem v8_eq (c : Dev nD) :
    (V m c main_v8 : S128x512x128.Idx → EReal)
      = shapeCast S128x512x128 (m ((c : Thread nD τ).loc main_arg1) : S128x65536.Idx → EReal) shapeCasts_S128x65536_S128x512x128 := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results
  rfl

/-- The padding value of the update vectors: the integer 0 converted is the real 0. -/
private theorem padValue_eq : (sitofp (F := Ideal) .f32 (constantI S_ 32 0#32)) (Shape.Idx.first h_S_) = (0 : EReal) := by
  show (((0#32 : BitVec 32).toInt : ℝ) : EReal) = 0
  simp

/-- The re-laying `[128, 65536] → [128, 512, 128]` at `(E, blk, off)` is the operand at `(E, blk · 128 + off)`. -/
private theorem relay_apply (x : S128x65536.Idx → EReal) (E : Fin 128) (blk : Fin 512) (off : Fin 128) :
    shapeCast S128x512x128 x shapeCasts_S128x65536_S128x512x128 (ix3 E blk off) = x (ix2 E (pos blk off)) :=
  shapeCast_apply x _ _ _ (by
    rw [Shape.rowMajor_val_two, Shape.rowMajor_val_three]
    show E.val * 65536 + (blk.val * 128 + off.val) = (E.val * 512 + blk.val) * 128 + off.val
    omega)

/-- The index words the call reads: row `E`, padded sample `K` is sample `K`'s word for row `E`, and the word 0 in the padding. -/
theorem regions_apply (c : Dev nD) (E : Fin 128) (K : Fin 100096) :
    (V m c main_v2 : S128x100096x1.Idx → BitVec 32) (ix3 E K 0)
      = if h : K.val < 100000 then (m ((c : Thread nD τ).loc main_arg2) : S100000x128.Idx → BitVec 32) (ix2 ⟨K.val, h⟩ E) else 0#32 := by
  rw [v2_eq, shapeCast_ab_ab1_apply]
  by_cases h : K.val < 100000
  · rw [dif_pos h, pad2_axis1_inside _ _ _ _ E K h]
    exact transpose_ix2_apply _ _ E ⟨K.val, h⟩
  · rw [dif_neg h, pad2_axis1_outside _ _ _ _ E K h]
    rfl

/-- The first update vector the call reads: sample `K`'s update, and 0 in the padding. -/
theorem da_apply (c : Dev nD) (K : Fin 100096) :
    (V m c main_v4 : S1x100096x1.Idx → EReal) (ix3 0 K 0)
      = (if h : K.val < 100000 then (m ((c : Thread nD τ).loc main_arg3) : S100000.Idx → EReal) (ix1 ⟨K.val, h⟩) else (0 : EReal)) := by
  rw [v4_eq]
  by_cases h : K.val < 100000
  · rw [dif_pos h, pad3_axis1_inside _ _ _ _ 0 K 0 h]
    exact shapeCast_a_1a1_apply _ _ 0 ⟨K.val, h⟩ 0
  · rw [dif_neg h, pad3_axis1_outside _ _ _ _ 0 K 0 h]
    exact padValue_eq

/-- The second update vector the call reads. -/
theorem db_apply (c : Dev nD) (K : Fin 100096) :
    (V m c main_v6 : S1x100096x1.Idx → EReal) (ix3 0 K 0)
      = (if h : K.val < 100000 then (m ((c : Thread nD τ).loc main_arg4) : S100000.Idx → EReal) (ix1 ⟨K.val, h⟩) else (0 : EReal)) := by
  rw [v6_eq]
  by_cases h : K.val < 100000
  · rw [dif_pos h, pad3_axis1_inside _ _ _ _ 0 K 0 h]
    exact shapeCast_a_1a1_apply _ _ 0 ⟨K.val, h⟩ 0
  · rw [dif_neg h, pad3_axis1_outside _ _ _ _ 0 K 0 h]
    exact padValue_eq

/-- The first table as the call reads it: entry (E, blk, off) is position `blk · 128 + off` of row `E`. -/
theorem a3_apply (c : Dev nD) (E : Fin 128) (blk : Fin 512) (off : Fin 128) :
    (V m c main_v7 : S128x512x128.Idx → EReal) (ix3 E blk off)
      = (m ((c : Thread nD τ).loc main_arg0) : S128x65536.Idx → EReal) (ix2 E (pos blk off)) := by
  rw [v7_eq]
  exact relay_apply _ E blk off

/-- The second table as the call reads it. -/
theorem b3_apply (c : Dev nD) (E : Fin 128) (blk : Fin 512) (off : Fin 128) :
    (V m c main_v8 : S128x512x128.Idx → EReal) (ix3 E blk off)
      = (m ((c : Thread nD τ).loc main_arg1) : S128x65536.Idx → EReal) (ix2 E (pos blk off)) := by
  rw [v8_eq]
  exact relay_apply _ E blk off

/-- The lines of @main after the call, as one function of the call's two result arrays: each laid back to 128 × 65536,
    given a leading unit axis, the two stacked. -/
def tail (X Y : S128x512x128.Idx → EReal) : S2x128x65536.Idx → EReal :=
  concatenate S2x128x65536 0
    [⟨S1x128x65536, broadcastInDim S1x128x65536 ![1, 2] bcast_S128x65536_S1x128x65536_1_2 (shapeCast S128x65536 X shapeCasts_S128x512x128_S128x65536)⟩,
     ⟨S1x128x65536, broadcastInDim S1x128x65536 ![1, 2] bcast_S128x65536_S1x128x65536_1_2 (shapeCast S128x65536 Y shapeCasts_S128x512x128_S128x65536)⟩]
    concatenates_S1x128x65536_S1x128x65536_S2x128x65536_d0

/-- Block `r / 128` and offset `r mod 128` of a table position. -/
def blkOf (r : Fin 65536) : Fin 512 := ⟨r.val / 128, by have := r.isLt; omega⟩
def offOf (r : Fin 65536) : Fin 128 := ⟨r.val % 128, by omega⟩

/-- The laying back `[128, 512, 128] → [128, 65536]` at `(E, r)` is the operand at `(E, r / 128, r mod 128)`. -/
private theorem layBack_apply (Z : S128x512x128.Idx → EReal) (E : Fin 128) (r : Fin 65536) :
    shapeCast S128x65536 Z shapeCasts_S128x512x128_S128x65536 (ix2 E r) = Z (ix3 E (blkOf r) (offOf r)) :=
  shapeCast_apply Z _ _ _ (by
    rw [Shape.rowMajor_val_two, Shape.rowMajor_val_three]
    show (E.val * 512 + r.val / 128) * 128 + r.val % 128 = E.val * 65536 + r.val
    omega)

/-- A leading unit axis added by a broadcast: at `(u, E, r)` the operand at `(E, r)`. -/
private theorem unitAxis_apply (x : S128x65536.Idx → EReal) (u : Fin 1) (E : Fin 128) (r : Fin 65536) :
    broadcastInDim S1x128x65536 ![1, 2] bcast_S128x65536_S1x128x65536_1_2 x (ix3 u E r) = x (ix2 E r) :=
  broadcastInDim_apply _ _ x _ _ (fun a => by
    match a with
    | ⟨0, _⟩ => show E.val = if (128 : ℕ) = 1 then 0 else E.val; rw [if_neg (by decide)]
    | ⟨1, _⟩ => show r.val = if (65536 : ℕ) = 1 then 0 else r.val; rw [if_neg (by decide)])

/-- One plane of the stack: a result laid back and given its unit axis, read at `(0, E, r)`. -/
private theorem plane_apply (Z : S128x512x128.Idx → EReal) (E : Fin 128) (r : Fin 65536) :
    broadcastInDim S1x128x65536 ![1, 2] bcast_S128x65536_S1x128x65536_1_2
        (shapeCast S128x65536 Z shapeCasts_S128x512x128_S128x65536) (ix3 (0 : Fin 1) E r)
      = Z (ix3 E (blkOf r) (offOf r)) := by
  rw [unitAxis_apply, layBack_apply]

/-- Plane 0 of the stack is the first result, plane 1 the second, each read at (row, r / 128, r mod 128). -/
theorem tail_apply (X Y : S128x512x128.Idx → EReal) (p : Fin 2) (E : Fin 128) (r : Fin 65536) :
    tail X Y (ix3 p E r) = if p.val = 0 then X (ix3 E (blkOf r) (offOf r)) else Y (ix3 E (blkOf r) (offOf r)) := by
  unfold tail
  match p with
  | ⟨0, hp⟩ =>
    rw [if_pos rfl]
    refine (concatenate_pair_apply_left (t := S2x128x65536) (s₁ := S1x128x65536) (s₂ := S1x128x65536) (0 : Fin 3) _ _
      concatenates_S1x128x65536_S1x128x65536_S2x128x65536_d0 (ix3 (⟨0, hp⟩ : Fin 2) E r) rfl (ix3 (0 : Fin 1) E r)
      (fun b => ?_)).trans (plane_apply X E r)
    match b with
    | ⟨0, _⟩ => rfl
    | ⟨1, _⟩ => rfl
    | ⟨2, _⟩ => rfl
  | ⟨1, hp⟩ =>
    rw [if_neg (by exact Nat.one_ne_zero)]
    refine (concatenate_pair_apply_right (t := S2x128x65536) (s₁ := S1x128x65536) (s₂ := S1x128x65536) (0 : Fin 3) _ _
      concatenates_S1x128x65536_S1x128x65536_S2x128x65536_d0 (ix3 (⟨1, hp⟩ : Fin 2) E r) rfl rfl (ix3 (0 : Fin 1) E r)
      (fun b hb => ?_) rfl).trans (plane_apply Y E r)
    match b with
    | ⟨0, _⟩ => exact absurd rfl hb
    | ⟨1, _⟩ => rfl
    | ⟨2, _⟩ => rfl

end Cert.KernelIdeal.KV

end
-- ==== Proof.KChain.lean ====
/-
  The kernel program's result, over the extended reals, is the stacked pair of scatter-added tables.

  The grid has 16 row tiles × 391 sample tiles; point t is row tile t / 391, sample tile t mod 391.  Within a row tile
  the two accumulators hold, after sample tile k, the products of the sample tiles 0 … k of the padded sample axis
  (by induction on the point: the first tile starts from the zero block, every later tile adds to what the tile
  before left).  After the last sample tile the accumulator holds the sum over all 100096 padded samples, and the
  point writes table block + accumulator to the output, whose 16 blocks of 8 rows cover the 128 rows.  The lines
  after the call lay the two outputs back to 128 × 65536 and stack them.  Padding contributes nothing and a word in
  [0, 65536) addresses position r exactly when its block and offset are those of r, so each plane is the table plus,
  at (e, r), the updates of the samples whose word for row e is r.
-/
import proofs.«415038_j3642132267698_1_alg».proof.Proof.Gen.KernelIdeal.Frame
import proofs.«415038_j3642132267698_1_alg».proof.Proof.KGrid
import proofs.«415038_j3642132267698_1_alg».proof.Proof.Spec
import proofs.«415038_j3642132267698_1_alg».proof.Proof.KPay
import proofs.«415038_j3642132267698_1_alg».proof.Proof.KPieces
import proofs.«415038_j3642132267698_1_alg».proof.Proof.KHost
import Idealize.ShloMosaic.Lib.ValueIdx
import Idealize.ShloMosaic.Lib.Pipeline.Value
import Idealize.ShloMosaic.Lib.StableHlo.Run
import Idealize.ShloMosaic.Lib.Tactic

set_option maxRecDepth 16384

noncomputable section

namespace Cert.KernelIdeal.KV

open Idealize.ShloMosaic Idealize.ShloMosaic.TcCoe Idealize.SL.Sem Idealize.ShloMosaic.ValueIdx
open Idealize.ShloMosaic.Pipeline (Dat)
open Cert.KernelIdeal Cert.KernelIdeal.Gen Cert.ScatterSpec
open scoped BigOperators

variable (m : (ℓ : Loc nD τ sig) → Buf (Elt Ideal) ℓ) (ρ : Dev nD → PrngReg)

/-! ## What one point adds -/

/-- What padded sample `K` adds at entry (E, blk, off) of the first table: the product of its two one-hot factors and
    its first update. -/
def fA (c : Dev nD) (E : Fin 128) (blk : Fin 512) (off : Fin 128) : Fin 100096 → EReal := fun K =>
  tileTerm (RG m c (ix3 E K 0)) (DA m c (ix3 0 K 0)) blk off

/-- The same with its second update. -/
def fB (c : Dev nD) (E : Fin 128) (blk : Fin 512) (off : Fin 128) : Fin 100096 → EReal := fun K =>
  tileTerm (RG m c (ix3 E K 0)) (DB m c (ix3 0 K 0)) blk off

/-- The sample tile of point `t`. -/
def tileOf (t : Fin cfg0.N) : Fin 391 := ⟨t.val % 391, Nat.mod_lt _ (by decide)⟩

theorem sampOf_eq (t : Fin cfg0.N) (k : Fin 256) : sampOf t k = tilePos (tileOf t) k :=
  Fin.ext (by show 256 * (t.val % 391) + k.val = (t.val % 391) * 256 + k.val; omega)

/-- The 256 products of point `t` at entry (e, blk, off) are the point's sample tile of the row's padded products. -/
theorem point_sum_A (c : Dev nD) (t : Fin cfg0.N) (e : Fin 8) (blk : Fin 512) (off : Fin 128) :
    ∑ k : Fin 256, tileTerm ((iblk m c 0 t : S8x256x1.Idx → BitVec 32) (ix3 e k 0)) ((iblk m c 1 t : S1x256x1.Idx → EReal) (ix3 0 k 0)) blk off
      = tileSum (fA m c (rowOf t e) blk off) (tileOf t) := by
  unfold tileSum
  refine Finset.sum_congr rfl fun k _ => ?_
  rw [rblk_apply m c t e k 0, dablk_apply m c t 0 k 0, sampOf_eq]
  rfl

theorem point_sum_B (c : Dev nD) (t : Fin cfg0.N) (e : Fin 8) (blk : Fin 512) (off : Fin 128) :
    ∑ k : Fin 256, tileTerm ((iblk m c 0 t : S8x256x1.Idx → BitVec 32) (ix3 e k 0)) ((iblk m c 2 t : S1x256x1.Idx → EReal) (ix3 0 k 0)) blk off
      = tileSum (fB m c (rowOf t e) blk off) (tileOf t) := by
  unfold tileSum
  refine Finset.sum_congr rfl fun k _ => ?_
  rw [rblk_apply m c t e k 0, dbblk_apply m c t 0 k 0, sampOf_eq]
  rfl

/-! ## The accumulators, point by point -/

/-- First point of a row tile: the accumulators hold the tile's products. -/
theorem acc_first (c : Dev nD) (t : Fin cfg0.N) (h0 : t.val % 391 = 0) (h1 : ¬t.val % 391 = 390)
    (e : Fin 8) (blk : Fin 512) (off : Fin 128) :
    (outsAt0 m c t.val t.isLt).2.2.1 (ix3 e blk off) = tileSum (fA m c (rowOf t e) blk off) (tileOf t)
    ∧ (outsAt0 m c t.val t.isLt).2.2.2 (ix3 e blk off) = tileSum (fB m c (rowOf t e) blk off) (tileOf t) := by
  rw [outsAt0_A m c t h0 h1]
  dsimp only
  constructor
  · refine (congrFun (sout_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) (ix3 e blk off)).trans ?_
    refine (pay11_apply (iblk m c 0 t) (iblk m c 1 t) (k0_pay5 (F := Ideal)) e blk off).trans ?_
    rw [pay5_apply, zero_add]
    exact point_sum_A m c t e blk off
  · refine (congrFun (sout_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) (ix3 e blk off)).trans ?_
    refine (pay10_apply (iblk m c 0 t) (iblk m c 2 t) (k0_pay6 (F := Ideal)) e blk off).trans ?_
    rw [pay6_apply, zero_add]
    exact point_sum_B m c t e blk off

/-- A middle point: each accumulator holds what the point before left plus the tile's products. -/
theorem acc_middle (c : Dev nD) (t : Fin cfg0.N) (h0 : ¬t.val % 391 = 0) (h1 : ¬t.val % 391 = 390)
    (e : Fin 8) (blk : Fin 512) (off : Fin 128) :
    (outsAt0 m c t.val t.isLt).2.2.1 (ix3 e blk off)
        = (outsAt0 m c (t.val - 1) (Nat.lt_of_le_of_lt (Nat.sub_le _ _) t.isLt)).2.2.1 (ix3 e blk off) + tileSum (fA m c (rowOf t e) blk off) (tileOf t)
    ∧ (outsAt0 m c t.val t.isLt).2.2.2 (ix3 e blk off)
        = (outsAt0 m c (t.val - 1) (Nat.lt_of_le_of_lt (Nat.sub_le _ _) t.isLt)).2.2.2 (ix3 e blk off) + tileSum (fB m c (rowOf t e) blk off) (tileOf t) := by
  rw [outsAt0_B m c t h0 h1]
  dsimp only
  constructor
  · refine (congrFun (sout_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) (ix3 e blk off)).trans ?_
    refine (pay11_apply (iblk m c 0 t) (iblk m c 1 t) _ e blk off).trans ?_
    rw [point_sum_A m c t e blk off]
  · refine (congrFun (sout_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) (ix3 e blk off)).trans ?_
    refine (pay10_apply (iblk m c 0 t) (iblk m c 2 t) _ e blk off).trans ?_
    rw [point_sum_B m c t e blk off]

/-- The last point of a row tile: the accumulators as at a middle point, and each output block is the table block
    plus the accumulator. -/
theorem acc_last (c : Dev nD) (t : Fin cfg0.N) (h0 : ¬t.val % 391 = 0) (h1 : t.val % 391 = 390)
    (e : Fin 8) (blk : Fin 512) (off : Fin 128) :
    ((outsAt0 m c t.val t.isLt).2.2.1 (ix3 e blk off)
        = (outsAt0 m c (t.val - 1) (Nat.lt_of_le_of_lt (Nat.sub_le _ _) t.isLt)).2.2.1 (ix3 e blk off) + tileSum (fA m c (rowOf t e) blk off) (tileOf t)
    ∧ (outsAt0 m c t.val t.isLt).2.2.2 (ix3 e blk off)
        = (outsAt0 m c (t.val - 1) (Nat.lt_of_le_of_lt (Nat.sub_le _ _) t.isLt)).2.2.2 (ix3 e blk off) + tileSum (fB m c (rowOf t e) blk off) (tileOf t))
    ∧ (outsAt0 m c t.val t.isLt).1 (ix3 e blk off)
        = TA m c (ix3 (rowOf t e) blk off) + (outsAt0 m c t.val t.isLt).2.2.1 (ix3 e blk off)
    ∧ (outsAt0 m c t.val t.isLt).2.1 (ix3 e blk off)
        = TB m c (ix3 (rowOf t e) blk off) + (outsAt0 m c t.val t.isLt).2.2.2 (ix3 e blk off) := by
  rw [outsAt0_C m c t h0 h1]
  dsimp only
  refine ⟨⟨?_, ?_⟩, ?_, ?_⟩
  · refine (congrFun (sout_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) (ix3 e blk off)).trans ?_
    refine (pay11_apply (iblk m c 0 t) (iblk m c 1 t) _ e blk off).trans ?_
    rw [point_sum_A m c t e blk off]
  · refine (congrFun (sout_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) (ix3 e blk off)).trans ?_
    refine (pay10_apply (iblk m c 0 t) (iblk m c 2 t) _ e blk off).trans ?_
    rw [point_sum_B m c t e blk off]
  · refine (congrFun (out_C_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) (ix3 e blk off)).trans ?_
    refine (pay3_apply (iblk m c 3 t) _ (ix3 e blk off)).trans ?_
    rw [tablk_apply m c t e blk off]
    exact congrArg _ (congrFun (sout_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) (ix3 e blk off)).symm
  · refine (congrFun (out_C_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) (ix3 e blk off)).trans ?_
    refine (pay4_apply (iblk m c 4 t) _ (ix3 e blk off)).trans ?_
    rw [tbblk_apply m c t e blk off]
    exact congrArg _ (congrFun (sout_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) (ix3 e blk off)).symm

/-! ## The accumulators as partial sums over the sample tiles -/

theorem upto_first (f : Fin 100096 → EReal) (a : Fin 391) (ha : a.val = 0) : tileSum f a = uptoTile f 0 := by
  have e : a = ⟨0, by decide⟩ := Fin.ext ha
  rw [e, uptoTile_zero]

theorem upto_step (f : Fin 100096 → EReal) (k : ℕ) (a : Fin 391) (ha : a.val = k + 1) :
    uptoTile f k + tileSum f a = uptoTile f (k + 1) := by
  have hk : k + 1 < 391 := ha ▸ a.isLt
  have e : a = ⟨k + 1, hk⟩ := Fin.ext ha
  rw [e, uptoTile_succ f k hk]

theorem rowOf_succ (n : ℕ) (h : n + 1 < cfg0.N) (h0 : ¬(n + 1) % 391 = 0) (e : Fin 8) :
    rowOf ⟨n + 1, h⟩ e = rowOf ⟨n, Nat.lt_of_succ_lt h⟩ e :=
  Fin.ext (by show 8 * ((n + 1) / 391) + e.val = 8 * (n / 391) + e.val; omega)

/-- After point `n` the accumulators hold, at (e, blk, off), the products of the row's sample tiles up to the point's. -/
theorem acc_eq (c : Dev nD) : ∀ (n : ℕ) (h : n < cfg0.N) (e : Fin 8) (blk : Fin 512) (off : Fin 128),
    (outsAt0 m c n h).2.2.1 (ix3 e blk off) = uptoTile (fA m c (rowOf ⟨n, h⟩ e) blk off) (n % 391)
    ∧ (outsAt0 m c n h).2.2.2 (ix3 e blk off) = uptoTile (fB m c (rowOf ⟨n, h⟩ e) blk off) (n % 391)
  | 0, h, e, blk, off => by
    obtain ⟨a, b⟩ := acc_first m c ⟨0, h⟩ (Nat.zero_mod _) (by show ¬(0 % 391 = 390); omega) e blk off
    exact ⟨a.trans (upto_first _ _ (Nat.zero_mod _)), b.trans (upto_first _ _ (Nat.zero_mod _))⟩
  | n + 1, h, e, blk, off => by
    by_cases h0 : (n + 1) % 391 = 0
    · have h1 : ¬(n + 1) % 391 = 390 := by omega
      obtain ⟨a, b⟩ := acc_first m c ⟨n + 1, h⟩ h0 h1 e blk off
      rw [h0]
      exact ⟨a.trans (upto_first _ _ h0), b.trans (upto_first _ _ h0)⟩
    · obtain ⟨ia, ib⟩ := acc_eq c n (Nat.lt_of_succ_lt h) e blk off
      have hk : (n + 1) % 391 = n % 391 + 1 := by omega
      have hstep : ∀ f : Fin 100096 → EReal, uptoTile f (n % 391) + tileSum f (tileOf ⟨n + 1, h⟩) = uptoTile f ((n + 1) % 391) := by
        intro f; rw [hk]; exact upto_step f _ _ hk
      by_cases h1 : (n + 1) % 391 = 390
      · obtain ⟨⟨a, b⟩, -, -⟩ := acc_last m c ⟨n + 1, h⟩ h0 h1 e blk off
        refine ⟨a.trans ?_, b.trans ?_⟩
        · show (outsAt0 m c n _).2.2.1 (ix3 e blk off) + _ = _
          rw [ia, rowOf_succ n h h0 e]; exact hstep _
        · show (outsAt0 m c n _).2.2.2 (ix3 e blk off) + _ = _
          rw [ib, rowOf_succ n h h0 e]; exact hstep _
      · obtain ⟨a, b⟩ := acc_middle m c ⟨n + 1, h⟩ h0 h1 e blk off
        refine ⟨a.trans ?_, b.trans ?_⟩
        · show (outsAt0 m c n _).2.2.1 (ix3 e blk off) + _ = _
          rw [ia, rowOf_succ n h h0 e]; exact hstep _
        · show (outsAt0 m c n _).2.2.2 (ix3 e blk off) + _ = _
          rw [ib, rowOf_succ n h h0 e]; exact hstep _

/-! ## The two result arrays of the call -/

/-- The first result array: the first table plus, at (E, blk, off), the products of all the row's padded samples. -/
def RA (c : Dev nD) : S128x512x128.Idx → EReal := fun j =>
  TA m c j + ∑ K : Fin 100096, fA m c (j 0) (j 1) (j 2) K

/-- The second result array. -/
def RB (c : Dev nD) : S128x512x128.Idx → EReal := fun j =>
  TB m c j + ∑ K : Fin 100096, fB m c (j 0) (j 1) (j 2) K

/-- At the last point of a row tile the output blocks are the blocks of `RA`, `RB` at the tile's rows. -/
theorem out_last (c : Dev nD) (t : Fin cfg0.N) (h1 : t.val % 391 = 390) (j : S8x512x128.Idx) :
    (outsAt0 m c t.val t.isLt).1 j = RA m c (ix3 (rowOf t (j 0)) (j 1) (j 2))
    ∧ (outsAt0 m c t.val t.isLt).2.1 j = RB m c (ix3 (rowOf t (j 0)) (j 1) (j 2)) := by
  obtain ⟨e, blk, off, rfl⟩ : ∃ (e : Fin 8) (blk : Fin 512) (off : Fin 128), j = ix3 e blk off := ⟨j 0, j 1, j 2, eq_ix3 j⟩
  have h0 : ¬t.val % 391 = 0 := by omega
  obtain ⟨-, oa, ob⟩ := acc_last m c t h0 h1 e blk off
  obtain ⟨sa, sb⟩ := acc_eq m c t.val t.isLt e blk off
  rw [h1, uptoTile_last] at sa sb
  constructor
  · rw [oa, sa]; rfl
  · rw [ob, sb]; rfl

/-! ## What the last point of a row tile writes back, and the arrays after the call -/

/-- The last point of the row tile that holds row `i0`. -/
def lastOf (i0 : Fin 128) : Fin cfg0.N :=
  ⟨i0.val / 8 * 391 + 390, by have hN : cfg0.N = 6256 := N_0; have := i0.isLt; omega⟩

theorem flushed5_eq (c : Dev nD) (t : Fin cfg0.N) (hf : (cfg0.win 5).flush t = true) :
    (dats m 0 c).flushed 5 t = ((cfg0.win 5).blk t).view.read (Elt Ideal) (RA m c) := by
  have h1 : t.val % 391 = 390 := (flush0_5 t).mp hf
  obtain ⟨-, -, -, -, -, -, -, -, -, -, -, -, -, -, -, e0, e1, e2, -⟩ := idx_facts t
  show (cfg0.win 5).cut (grid0.coords t) ((dats m 0 c).after 5 t) = _
  rw [after0_5]
  funext j
  show (outsAt0 m c t.val t.isLt).1 j = RA m c (((cfg0.win 5).blk t).view.emb j)
  have he : ((cfg0.win 5).blk t).view.emb j = ix3 (rowOf t (j 0)) (j 1) (j 2) := by
    funext a; apply Fin.ext
    match a with
    | ⟨0, _⟩ => show win0_5.index t (0 : Fin 3) * 8 + 1 * (j 0).val = 8 * (t.val / 391) + (j 0).val; rw [e0]; omega
    | ⟨1, _⟩ => show win0_5.index t (1 : Fin 3) * 512 + 1 * (j 1).val = (j 1).val; rw [e1]; omega
    | ⟨2, _⟩ => show win0_5.index t (2 : Fin 3) * 128 + 1 * (j 2).val = (j 2).val; rw [e2]; omega
  rw [he]
  exact (out_last m c t h1 j).1

theorem flushed6_eq (c : Dev nD) (t : Fin cfg0.N) (hf : (cfg0.win 6).flush t = true) :
    (dats m 0 c).flushed 6 t = ((cfg0.win 6).blk t).view.read (Elt Ideal) (RB m c) := by
  have h1 : t.val % 391 = 390 := (flush0_6 t).mp hf
  obtain ⟨-, -, -, -, -, -, -, -, -, -, -, -, -, -, -, -, -, -, e0, e1, e2⟩ := idx_facts t
  show (cfg0.win 6).cut (grid0.coords t) ((dats m 0 c).after 6 t) = _
  rw [after0_6]
  funext j
  show (outsAt0 m c t.val t.isLt).2.1 j = RB m c (((cfg0.win 6).blk t).view.emb j)
  have he : ((cfg0.win 6).blk t).view.emb j = ix3 (rowOf t (j 0)) (j 1) (j 2) := by
    funext a; apply Fin.ext
    match a with
    | ⟨0, _⟩ => show win0_6.index t (0 : Fin 3) * 8 + 1 * (j 0).val = 8 * (t.val / 391) + (j 0).val; rw [e0]; omega
    | ⟨1, _⟩ => show win0_6.index t (1 : Fin 3) * 512 + 1 * (j 1).val = (j 1).val; rw [e1]; omega
    | ⟨2, _⟩ => show win0_6.index t (2 : Fin 3) * 128 + 1 * (j 2).val = (j 2).val; rw [e2]; omega
  rw [he]
  exact (out_last m c t h1 j).2

theorem mem_blk5 (t : Fin cfg0.N) (i : S128x512x128.Idx) :
    i ∈ ((cfg0.win 5).blk t).view.set ↔ ∀ a : Fin 3, win0_5.index t a * S8x512x128.size a ≤ (i a).val ∧ (i a).val < win0_5.index t a * S8x512x128.size a + S8x512x128.size a := by
  show i ∈ ((View.whole main_v9_0).slice (win0_5.rect t)).set ↔ _
  rw [View.set_slice_whole, Rect.mem_set_unit]
  exact Iff.rfl

theorem mem_blk6 (t : Fin cfg0.N) (i : S128x512x128.Idx) :
    i ∈ ((cfg0.win 6).blk t).view.set ↔ ∀ a : Fin 3, win0_6.index t a * S8x512x128.size a ≤ (i a).val ∧ (i a).val < win0_6.index t a * S8x512x128.size a + S8x512x128.size a := by
  show i ∈ ((View.whole main_v9_1).slice (win0_6.rect t)).set ↔ _
  rw [View.set_slice_whole, Rect.mem_set_unit]
  exact Iff.rfl

/-- Every entry of the first result array is in the block the last point of its row tile writes back. -/
theorem cover5 (i : S128x512x128.Idx) : ∃ t : Fin cfg0.N, (cfg0.win 5).flush t = true ∧ i ∈ ((cfg0.win 5).blk t).view.set := by
  have hi0 : (i 0).val < 128 := (i 0).isLt
  have hi1 : (i 1).val < 512 := (i 1).isLt
  have hi2 : (i 2).val < 128 := (i 2).isLt
  have hv : (lastOf (i 0)).val = (i 0).val / 8 * 391 + 390 := rfl
  refine ⟨lastOf (i 0), (flush0_5 _).mpr (by rw [hv]; omega), ?_⟩
  obtain ⟨-, -, -, -, -, -, -, -, -, -, -, -, -, -, -, e0, e1, e2, -⟩ := idx_facts (lastOf (i 0))
  rw [hv] at e0
  rw [mem_blk5]
  intro a
  match a with
  | ⟨0, _⟩ => show win0_5.index (lastOf (i 0)) (0 : Fin 3) * 8 ≤ (i 0).val ∧ (i 0).val < win0_5.index (lastOf (i 0)) (0 : Fin 3) * 8 + 8; rw [e0]; omega
  | ⟨1, _⟩ => show win0_5.index (lastOf (i 0)) (1 : Fin 3) * 512 ≤ (i 1).val ∧ (i 1).val < win0_5.index (lastOf (i 0)) (1 : Fin 3) * 512 + 512; rw [e1]; omega
  | ⟨2, _⟩ => show win0_5.index (lastOf (i 0)) (2 : Fin 3) * 128 ≤ (i 2).val ∧ (i 2).val < win0_5.index (lastOf (i 0)) (2 : Fin 3) * 128 + 128; rw [e2]; omega

theorem cover6 (i : S128x512x128.Idx) : ∃ t : Fin cfg0.N, (cfg0.win 6).flush t = true ∧ i ∈ ((cfg0.win 6).blk t).view.set := by
  have hi0 : (i 0).val < 128 := (i 0).isLt
  have hi1 : (i 1).val < 512 := (i 1).isLt
  have hi2 : (i 2).val < 128 := (i 2).isLt
  have hv : (lastOf (i 0)).val = (i 0).val / 8 * 391 + 390 := rfl
  refine ⟨lastOf (i 0), (flush0_6 _).mpr (by rw [hv]; omega), ?_⟩
  obtain ⟨-, -, -, -, -, -, -, -, -, -, -, -, -, -, -, -, -, -, e0, e1, e2⟩ := idx_facts (lastOf (i 0))
  rw [hv] at e0
  rw [mem_blk6]
  intro a
  match a with
  | ⟨0, _⟩ => show win0_6.index (lastOf (i 0)) (0 : Fin 3) * 8 ≤ (i 0).val ∧ (i 0).val < win0_6.index (lastOf (i 0)) (0 : Fin 3) * 8 + 8; rw [e0]; omega
  | ⟨1, _⟩ => show win0_6.index (lastOf (i 0)) (1 : Fin 3) * 512 ≤ (i 1).val ∧ (i 1).val < win0_6.index (lastOf (i 0)) (1 : Fin 3) * 512 + 512; rw [e1]; omega
  | ⟨2, _⟩ => show win0_6.index (lastOf (i 0)) (2 : Fin 3) * 128 ≤ (i 2).val ∧ (i 2).val < win0_6.index (lastOf (i 0)) (2 : Fin 3) * 128 + 128; rw [e2]; omega

/-- The first result array after the call. -/
theorem final5 (c : Dev nD) : (dats m 0 c).arrAt 5 cfg0.N = RA m c :=
  (dats m 0 c).arrAt_eq_of_cover 5 (RA m c) (flushed5_eq m c) (cover5)

/-- The second result array after the call. -/
theorem final6 (c : Dev nD) : (dats m 0 c).arrAt 6 cfg0.N = RB m c :=
  (dats m 0 c).arrAt_eq_of_cover 6 (RB m c) (flushed6_eq m c) (cover6)

/-! ## Each result array is a scatter-added table -/

/-- @main's argument arrays, named at their literal types. -/
abbrev argA (c : Dev nD) : S128x65536.Idx → EReal := m ((c : Thread nD τ).loc main_arg0)
abbrev argB (c : Dev nD) : S128x65536.Idx → EReal := m ((c : Thread nD τ).loc main_arg1)
abbrev argI (c : Dev nD) : S100000x128.Idx → BitVec 32 := m ((c : Thread nD τ).loc main_arg2)
abbrev argDa (c : Dev nD) : S100000.Idx → EReal := m ((c : Thread nD τ).loc main_arg3)
abbrev argDb (c : Dev nD) : S100000.Idx → EReal := m ((c : Thread nD τ).loc main_arg4)

theorem regions_pad (c : Dev nD) (E : Fin 128) (s : Fin 100000) : RG m c (ix3 E (padIdx s) 0) = argI m c (ix2 s E) := by
  show (V m c main_v2 : S128x100096x1.Idx → BitVec 32) (ix3 E (padIdx s) 0) = _
  rw [regions_apply m c E (padIdx s), dif_pos (show (padIdx s).val < 100000 from s.isLt)]
  rfl

theorem da_pad (c : Dev nD) (s : Fin 100000) : DA m c (ix3 0 (padIdx s) 0) = argDa m c (ix1 s) := by
  show (V m c main_v4 : S1x100096x1.Idx → EReal) (ix3 0 (padIdx s) 0) = _
  rw [da_apply m c (padIdx s), dif_pos (show (padIdx s).val < 100000 from s.isLt)]
  rfl

theorem db_pad (c : Dev nD) (s : Fin 100000) : DB m c (ix3 0 (padIdx s) 0) = argDb m c (ix1 s) := by
  show (V m c main_v6 : S1x100096x1.Idx → EReal) (ix3 0 (padIdx s) 0) = _
  rw [db_apply m c (padIdx s), dif_pos (show (padIdx s).val < 100000 from s.isLt)]
  rfl

theorem da_tail (c : Dev nD) (K : Fin 100096) (hK : 100000 ≤ K.val) : DA m c (ix3 0 K 0) = 0 := by
  show (V m c main_v4 : S1x100096x1.Idx → EReal) (ix3 0 K 0) = _
  rw [da_apply m c K, dif_neg (by omega)]

theorem db_tail (c : Dev nD) (K : Fin 100096) (hK : 100000 ≤ K.val) : DB m c (ix3 0 K 0) = 0 := by
  show (V m c main_v6 : S1x100096x1.Idx → EReal) (ix3 0 K 0) = _
  rw [db_apply m c K, dif_neg (by omega)]

/-- Every padded index word is in [0, 65536): a sample's word by the hypothesis, the padding's word is 0. -/
theorem regions_range (hr : ∀ (c : Dev nD) (i : S100000x128.Idx),
      0 ≤ ((m ((c : Thread nD τ).loc main_arg2) : S100000x128.Idx → BitVec 32) i).toInt
        ∧ ((m ((c : Thread nD τ).loc main_arg2) : S100000x128.Idx → BitVec 32) i).toInt < 65536) (c : Dev nD) (E : Fin 128) (K : Fin 100096) :
    0 ≤ (RG m c (ix3 E K 0)).toInt ∧ (RG m c (ix3 E K 0)).toInt < 65536 := by
  show 0 ≤ ((V m c main_v2 : S128x100096x1.Idx → BitVec 32) (ix3 E K 0)).toInt ∧ ((V m c main_v2 : S128x100096x1.Idx → BitVec 32) (ix3 E K 0)).toInt < 65536
  rw [regions_apply m c E K]
  by_cases hK : K.val < 100000
  · rw [dif_pos hK]; exact hr c _
  · rw [dif_neg hK]; decide

/-- Entry (E, blk, off) of the first result array: the table entry at position blk · 128 + off of row E plus the updates of
    the samples whose word for row E is that position. -/
theorem plane_A (hr : ∀ (c : Dev nD) (i : S100000x128.Idx),
      0 ≤ ((m ((c : Thread nD τ).loc main_arg2) : S100000x128.Idx → BitVec 32) i).toInt
        ∧ ((m ((c : Thread nD τ).loc main_arg2) : S100000x128.Idx → BitVec 32) i).toInt < 65536) (c : Dev nD) (E : Fin 128) (blk : Fin 512) (off : Fin 128) :
    RA m c (ix3 E blk off)
      = scat (fun e r => argA m c (ix2 e r)) (fun s e => argI m c (ix2 s e)) (fun s => argDa m c (ix1 s)) E (pos blk off) := by
  show TA m c (ix3 E blk off) + ∑ K : Fin 100096, fA m c E blk off K = _
  unfold scat
  have ht : TA m c (ix3 E blk off) = argA m c (ix2 E (pos blk off)) := a3_apply m c E blk off
  rw [ht]
  refine congrArg (argA m c (ix2 E (pos blk off)) + ·) ?_
  have hf : ∀ K : Fin 100096, fA m c E blk off K = addend (RG m c (ix3 E K 0)) (DA m c (ix3 0 K 0)) (blk.val * 128 + off.val) :=
    fun K => tileTerm_eq _ (regions_range m hr c E K).1 (regions_range m hr c E K).2 _ blk off
  rw [Finset.sum_congr rfl (fun K _ => hf K)]
  exact sum_padded (fun K => RG m c (ix3 E K 0)) (fun K => DA m c (ix3 0 K 0)) (fun s => argI m c (ix2 s E))
    (fun s => argDa m c (ix1 s)) (regions_pad m c E) (da_pad m c) (da_tail m c) _

theorem plane_B (hr : ∀ (c : Dev nD) (i : S100000x128.Idx),
      0 ≤ ((m ((c : Thread nD τ).loc main_arg2) : S100000x128.Idx → BitVec 32) i).toInt
        ∧ ((m ((c : Thread nD τ).loc main_arg2) : S100000x128.Idx → BitVec 32) i).toInt < 65536) (c : Dev nD) (E : Fin 128) (blk : Fin 512) (off : Fin 128) :
    RB m c (ix3 E blk off)
      = scat (fun e r => argB m c (ix2 e r)) (fun s e => argI m c (ix2 s e)) (fun s => argDb m c (ix1 s)) E (pos blk off) := by
  show TB m c (ix3 E blk off) + ∑ K : Fin 100096, fB m c E blk off K = _
  unfold scat
  have ht : TB m c (ix3 E blk off) = argB m c (ix2 E (pos blk off)) := b3_apply m c E blk off
  rw [ht]
  refine congrArg (argB m c (ix2 E (pos blk off)) + ·) ?_
  have hf : ∀ K : Fin 100096, fB m c E blk off K = addend (RG m c (ix3 E K 0)) (DB m c (ix3 0 K 0)) (blk.val * 128 + off.val) :=
    fun K => tileTerm_eq _ (regions_range m hr c E K).1 (regions_range m hr c E K).2 _ blk off
  rw [Finset.sum_congr rfl (fun K _ => hf K)]
  exact sum_padded (fun K => RG m c (ix3 E K 0)) (fun K => DB m c (ix3 0 K 0)) (fun s => argI m c (ix2 s E))
    (fun s => argDb m c (ix1 s)) (regions_pad m c E) (db_pad m c) (db_tail m c) _

/-- The stack of the two result arrays, laid back to 128 × 65536, is the stacked pair of scatter-added tables. -/
theorem tail_eq_stacked (hr : ∀ (c : Dev nD) (i : S100000x128.Idx),
      0 ≤ ((m ((c : Thread nD τ).loc main_arg2) : S100000x128.Idx → BitVec 32) i).toInt
        ∧ ((m ((c : Thread nD τ).loc main_arg2) : S100000x128.Idx → BitVec 32) i).toInt < 65536) (c : Dev nD) :
    tail (RA m c) (RB m c) = stacked (argA m c) (argB m c) (argI m c) (argDa m c) (argDb m c) := by
  funext i
  obtain ⟨p, E, r, rfl⟩ : ∃ (p : Fin 2) (E : Fin 128) (r : Fin 65536), i = ix3 p E r := ⟨i 0, i 1, i 2, eq_ix3 i⟩
  rw [tail_apply]
  have hpos : pos (blkOf r) (offOf r) = r := Fin.ext (by show r.val / 128 * 128 + r.val % 128 = r.val; omega)
  unfold stacked
  show (if p.val = 0 then _ else _) = (if p.val = 0 then _ else _)
  by_cases hp : p.val = 0
  · rw [if_pos hp, if_pos hp, plane_A m hr c E (blkOf r) (offOf r), hpos]
  · rw [if_neg hp, if_neg hp, plane_B m hr c E (blkOf r) (offOf r), hpos]

/-! ## The run -/

/-- The lines after the call applied to the two result arrays. -/
theorem tail_value (c : Dev nD) :
    Pipeline.afterTail₀ cfgs (dats m) 0 (V0 m) [hostOps1] c main_v14 = tail (RA m c) (RB m c) := by
  unfold Pipeline.afterTail₀
  show StableHlo.after hostOps1 _ (Proc.devRef .tc main_v14) = _
  after_results
  have e5 : Pipeline.withArrays (cfgs 0).spec c (V0 m c) (fun w => (dats m 0 c).arrAt w (cfgs 0).N) (Proc.devRef .tc main_v9_0) = RA m c :=
    (Pipeline.withArrays_arr spec0 launch0.win.arr_inj c _ _ 5).trans (final5 m c)
  have e6 : Pipeline.withArrays (cfgs 0).spec c (V0 m c) (fun w => (dats m 0 c).arrAt w (cfgs 0).N) (Proc.devRef .tc main_v9_1) = RB m c :=
    (Pipeline.withArrays_arr spec0 launch0.win.arr_inj c _ _ 6).trans (final6 m c)
  rw [e5, e6]
  rfl

/-- From a memory whose index words all lie in [0, 65536): every weakly fair execution of the kernel program ends with
    its result at the stacked pair of scatter-added tables of its argument arrays, and the arguments unchanged. -/
theorem run_value (hr : ∀ (c : Dev nD) (i : S100000x128.Idx),
      0 ≤ ((m ((c : Thread nD τ).loc main_arg2) : S100000x128.Idx → BitVec 32) i).toInt
        ∧ ((m ((c : Thread nD τ).loc main_arg2) : S100000x128.Idx → BitVec 32) i).toInt < 65536) :
    θ_run defs (onTc (τ := τ) (main (F := Ideal))) ⟨m, fun _ => 0, ρ⟩ fun r => ∀ c : Dev nD,
      r.2.mem ((c : Thread nD τ).loc main_v14)
          = stacked (m ((c : Thread nD τ).loc main_arg0)) (m ((c : Thread nD τ).loc main_arg1))
              (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨((h c).2 main_v14 (Pipeline.mem_restRefs_of main_v14 (by decide) (by decide))).trans ((tail_value m c).trans (tail_eq_stacked m hr c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KV

end
-- ==== Proof.lean ====
/-
  The certificate of a batched scatter-add.

  Both programs take two tables a, b of 128 rows × 65536 positions, index words (100000 samples × 128 rows) and two
  update vectors da, db of 100000 entries, and return the stack of a and b after every sample s has added da s (resp.
  db s) at position "word of (s, e)" of every row e.  The reference does it by a scatter with addition.  The kernel
  splits a position r into block r / 128 and offset r mod 128, builds for a tile of 8 rows × 256 samples the one-hot of
  the block and the one-hot of the offset times the update, and contracts the two over the samples on the matrix unit,
  accumulating over the 391 sample tiles of a row tile; the last tile adds the accumulator to the table block.  Over
  the extended reals both are: table entry plus the sum of the updates of the samples whose word is the entry's
  position.  The precondition keeps every index word in [0, 65536); a negative word the reference would wrap around
  and the kernel would drop.  The three frames are the generated runs; the ideal pass rewrote nothing.
-/
import proofs.«415038_j3642132267698_1_alg».proof.Defs
import proofs.«415038_j3642132267698_1_alg».proof.Proof.Gen.Kernel
import proofs.«415038_j3642132267698_1_alg».proof.Proof.Gen.Kernel.Skeleton
import proofs.«415038_j3642132267698_1_alg».proof.Proof.Gen.Kernel.Launch
import proofs.«415038_j3642132267698_1_alg».proof.Proof.Gen.Kernel.Points
import proofs.«415038_j3642132267698_1_alg».proof.Proof.Gen.Kernel.Frame
import proofs.«415038_j3642132267698_1_alg».proof.Proof.Gen.KernelIdeal
import proofs.«415038_j3642132267698_1_alg».proof.Proof.Gen.KernelIdeal.Skeleton
import proofs.«415038_j3642132267698_1_alg».proof.Proof.Gen.KernelIdeal.Launch
import proofs.«415038_j3642132267698_1_alg».proof.Proof.Gen.KernelIdeal.Points
import proofs.«415038_j3642132267698_1_alg».proof.Proof.Gen.KernelIdeal.Frame
import proofs.«415038_j3642132267698_1_alg».proof.Proof.Gen.ReferenceIdeal
import proofs.«415038_j3642132267698_1_alg».proof.Proof.Gen.ReferenceIdeal.Run
import proofs.«415038_j3642132267698_1_alg».proof.Proof.Gen.Pre_finite_inputs
import proofs.«415038_j3642132267698_1_alg».proof.Proof.PreDecode
import proofs.«415038_j3642132267698_1_alg».proof.Proof.RefValue
import proofs.«415038_j3642132267698_1_alg».proof.Proof.KChain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Under the precondition the index words are in range, so both programs end at the stacked scatter-added tables of
    their argument arrays; the arguments agree, so the results are equal. -/
theorem algebraic : Cert.algebraic_KernelIdeal_ReferenceIdeal := by
  intro m ρ m' ρ' hpre hagree
  have hr : ∀ (c : Dev Cert.KernelIdeal.nD) (i : Cert.KernelIdeal.S100000x128.Idx),
      0 ≤ ((m ((c : Thread Cert.KernelIdeal.nD Cert.KernelIdeal.τ).loc Cert.KernelIdeal.main_arg2) : Cert.KernelIdeal.S100000x128.Idx → BitVec 32) i).toInt
        ∧ ((m ((c : Thread Cert.KernelIdeal.nD Cert.KernelIdeal.τ).loc Cert.KernelIdeal.main_arg2) : Cert.KernelIdeal.S100000x128.Idx → BitVec 32) i).toInt < 65536 :=
    fun c i => Cert.Pre_finite_inputs.Decode.range_of_pre _ _ _ _ _ (hpre c) i
  have hr' : ∀ (c : Dev Cert.ReferenceIdeal.nD) (i : Cert.ReferenceIdeal.S100000x128.Idx),
      0 ≤ ((m' ((c : Thread Cert.ReferenceIdeal.nD Cert.ReferenceIdeal.τ).loc Cert.ReferenceIdeal.main_arg2) : Cert.ReferenceIdeal.S100000x128.Idx → BitVec 32) i).toInt
        ∧ ((m' ((c : Thread Cert.ReferenceIdeal.nD Cert.ReferenceIdeal.τ).loc Cert.ReferenceIdeal.main_arg2) : Cert.ReferenceIdeal.S100000x128.Idx → BitVec 32) i).toInt < 65536 := by
    intro c i
    rw [(hagree c).2.2.1]
    exact hr c i
  refine ⟨_, Cert.KernelIdeal.KV.run_value m ρ hr, ?_⟩
  refine (θ_run Cert.ReferenceIdeal.defs _ _).mono (fun _ h c => ⟨(h c).1.trans ?_, (h c).2⟩)
    (Cert.ReferenceIdeal.RV.run_value m' ρ' hr')
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
